-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x7 : Shape := ⟨3, ![8, 256, 7]⟩
abbrev S128x8 : Shape := ⟨2, ![128, 8]⟩
abbrev S128 : Shape := ⟨1, ![128]⟩
abbrev S_ : Shape := ⟨0, ![]⟩

class Facts : Prop where
  bcast_S_S8x256x7 : S_.BroadcastsInDim S8x256x7 (![] : Fin 0 → Fin S8x256x7.rank)
  reducesTo_S8x256x7_S_d0_1_2 : S8x256x7.ReducesTo [0, 1, 2] S_
  h_S_ : 0 < S_.numel
  bcast_S_S128x8 : S_.BroadcastsInDim S128x8 (![] : Fin 0 → Fin S128x8.rank)
  reducesTo_S128x8_S_d0_1 : S128x8.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S8x256x7 .f32) (main_arg1 : FVec F S8x256x7 .f32) (main_arg2 : FVec F S128x8 .f32) (main_arg3 : FVec F S128 .f32) : IVec S_ 1 :=
  let main_v0 : FVec F S8x256x7 .f32 := Host.absf main_arg0
  let main_cst : FVec F S_ .f32 := constant S_ .f32 0x7F800000#32
  let main_v1 : FVec F S8x256x7 .f32 := broadcastInDim S8x256x7 ![] bcast_S_S8x256x7 main_cst
  let main_v2 : IVec S8x256x7 1 := cmpf .olt main_v0 main_v1
  let main_c : IVec S_ 1 := constantI S_ 1 1#1
  let main_v3 : IVec S_ 1 := (fun x v => Host.reduce IntOp.andi x v reducesTo_S8x256x7_S_d0_1_2 h_S_) main_v2 main_c
  let main_v4 : FVec F S8x256x7 .f32 := Host.absf main_arg1
  let main_cst_0 : FVec F S_ .f32 := constant S_ .f32 0x7F800000#32
  let main_v5 : FVec F S8x256x7 .f32 := broadcastInDim S8x256x7 ![] bcast_S_S8x256x7 main_cst_0
  let main_v6 : IVec S8x256x7 1 := cmpf .olt main_v4 main_v5
  let main_c_1 : IVec S_ 1 := constantI S_ 1 1#1
  let main_v7 : IVec S_ 1 := (fun x v => Host.reduce IntOp.andi x v reducesTo_S8x256x7_S_d0_1_2 h_S_) main_v6 main_c_1
  let main_v8 : IVec S_ 1 := andi main_v3 main_v7
  let main_v9 : FVec F S128x8 .f32 := Host.absf main_arg2
  let main_cst_2 : FVec F S_ .f32 := constant S_ .f32 0x7F800000#32
  let main_v10 : FVec F S128x8 .f32 := broadcastInDim S128x8 ![] bcast_S_S128x8 main_cst_2
  let main_v11 : IVec S128x8 1 := cmpf .olt main_v9 main_v10
  let main_c_3 : IVec S_ 1 := constantI S_ 1 1#1
  let main_v12 : IVec S_ 1 := (fun x v => Host.reduce IntOp.andi x v reducesTo_S128x8_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S8x256x7 : Shape := ⟨3, ![8, 256, 7]⟩
abbrev S128x8 : Shape := ⟨2, ![128, 8]⟩
abbrev S128 : Shape := ⟨1, ![128]⟩
abbrev S8x128 : Shape := ⟨2, ![8, 128]⟩
abbrev S8x256x256x128 : Shape := ⟨4, ![8, 256, 256, 128]⟩
abbrev S1x128x7 : Shape := ⟨3, ![1, 128, 7]⟩
abbrev S1x128x128x128 : Shape := ⟨4, ![1, 128, 128, 128]⟩
abbrev S128x7 : Shape := ⟨2, ![128, 7]⟩
abbrev S128x1 : Shape := ⟨2, ![128, 1]⟩
abbrev S128x2 : Shape := ⟨2, ![128, 2]⟩
abbrev S1x128 : Shape := ⟨2, ![1, 128]⟩
abbrev S128x128 : Shape := ⟨2, ![128, 128]⟩
abbrev S1x128x2 : Shape := ⟨3, ![1, 128, 2]⟩
abbrev S128x128x2 : Shape := ⟨3, ![128, 128, 2]⟩
abbrev S128x128x1 : Shape := ⟨3, ![128, 128, 1]⟩
abbrev S128x128x6 : Shape := ⟨3, ![128, 128, 6]⟩
abbrev S128x128x8 : Shape := ⟨3, ![128, 128, 8]⟩
abbrev S16384x8 : Shape := ⟨2, ![16384, 8]⟩
abbrev S16384x128 : Shape := ⟨2, ![16384, 128]⟩
abbrev S128x128x128 : Shape := ⟨3, ![128, 128, 128]⟩
abbrev S1x1x128 : Shape := ⟨3, ![1, 1, 128]⟩

abbrev nBuf : Space → Nat
  | .hbm => 6
  | .vmem => 8
  | .smem => 0
  | _ => 0

abbrev bufTy : (tb : Table) → Fin (tcTables nBuf tb) → BufTy
  | .hbm, ⟨0, _⟩ => ⟨S8x256x7, .f32⟩
  | .hbm, ⟨1, _⟩ => ⟨S8x256x7, .f32⟩
  | .hbm, ⟨2, _⟩ => ⟨S128x8, .f32⟩
  | .hbm, ⟨3, _⟩ => ⟨S128, .f32⟩
  | .hbm, ⟨4, _⟩ => ⟨S8x128, .f32⟩
  | .hbm, ⟨5, _⟩ => ⟨S8x256x256x128, .f32⟩
  | .local _ .vmem, ⟨0, _⟩ => ⟨S1x128x7, .f32⟩
  | .local _ .vmem, ⟨1, _⟩ => ⟨S1x128x7, .f32⟩
  | .local _ .vmem, ⟨2, _⟩ => ⟨S1x128x7, .f32⟩
  | .local _ .vmem, ⟨3, _⟩ => ⟨S1x128x7, .f32⟩
  | .local _ .vmem, ⟨4, _⟩ => ⟨S8x128, .f32⟩
  | .local _ .vmem, ⟨5, _⟩ => ⟨S128, .f32⟩
  | .local _ .vmem, ⟨6, _⟩ => ⟨S1x128x128x128, .f32⟩
  | .local _ .vmem, ⟨7, _⟩ => ⟨S1x128x128x128, .f32⟩
  | _, _ => ⟨S8x256x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![8, 2, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x128x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x128x7 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x128x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  transposes_S128x8_S8x128_1_0 : S128x8.Transposes [1, 0] S8x128
  inb_S1x128x7_S1x128x7_0_0_0 : ∀ a, (![0, 0, 0] : Fin 3 → Nat) a + S1x128x7.size a ≤ S1x128x7.size a
  h_S1x128x7 : 0 < S1x128x7.numel
  shapeCasts_S1x128x7_S128x7 : S1x128x7.ShapeCasts S128x7
  reduces_S128x7_S128 : S128x7.Reduces [1] S128
  natLt_1_32 : 1 < 32
  slices_S128x7_o0_0_S128x1 : S128x7.Slices ![0, 0] S128x1
  shapeCasts_S128x1_S128 : S128x1.ShapeCasts S128
  slices_S128x7_o0_1_S128x1 : S128x7.Slices ![0, 1] S128x1
  slices_S128x7_o0_3_S128x1 : S128x7.Slices ![0, 3] S128x1
  slices_S128x7_o0_4_S128x1 : S128x7.Slices ![0, 4] S128x1
  slices_S128x7_o0_2_S128x1 : S128x7.Slices ![0, 2] S128x1
  slices_S128x7_o0_5_S128x2 : S128x7.Slices ![0, 5] S128x2
  shapeCasts_S128_S1x128 : S128.ShapeCasts S1x128
  shapeCasts_S128_S128x1 : S128.ShapeCasts S128x1
  broadcasts_S1x128_S128x128 : S1x128.Broadcasts S128x128
  broadcasts_S128x1_S128x128 : S128x1.Broadcasts S128x128
  shapeCasts_S1x128_S1x128 : S1x128.ShapeCasts S1x128
  shapeCasts_S128x2_S1x128x2 : S128x2.ShapeCasts S1x128x2
  shapeCasts_S1x128x2_S1x128x2 : S1x128x2.ShapeCasts S1x128x2
  broadcasts_S1x128x2_S128x128x2 : S1x128x2.Broadcasts S128x128x2
  shapeCasts_S128x128_S128x128x1 : S128x128.ShapeCasts S128x128x1
  concatenates_S128x128x1_S128x128x1_S128x128x1_S128x128x1_S128x128x1_S128x128x1_S128x128x6_d2 : Shape.Concatenates [S128x128x1, S128x128x1, S128x128x1, S128x128x1, S128x128x1, S128x128x1] S128x128x6 2
  concatenates_S128x128x6_S128x128x2_S128x128x8_d2 : Shape.Concatenates [S128x128x6, S128x128x2] S128x128x8 2
  shapeCasts_S128x128x8_S16384x8 : S128x128x8.ShapeCasts S16384x8
  bitsLt_bf16_f32 : FTy.bits .bf16 < FTy.bits .f32
  inb_S8x128_S8x128_0_0 : ∀ a, (![0, 0] : Fin 2 → Nat) a + S8x128.size a ≤ S8x128.size a
  h_S8x128 : 0 < S8x128.numel
  shapeCasts_S8x128_S8x128 : S8x128.ShapeCasts S8x128
  shapeCasts_S16384x128_S128x128x128 : S16384x128.ShapeCasts S128x128x128
  inb_S128_S128_0 : ∀ a, (![0] : Fin 1 → Nat) a + S128.size a ≤ S128.size a
  h_S128 : 0 < S128.numel
  shapeCasts_S128_S1x1x128 : S128.ShapeCasts S1x1x128
  broadcasts_S1x1x128_S128x128x128 : S1x1x128.Broadcasts S128x128x128
  inb_S1x128x128x128_S1x128x128x128_0_0_0_0 : ∀ a, (![0, 0, 0, 0] : Fin 4 → Nat) a + S1x128x128x128.size a ≤ S1x128x128x128.size a
  h_S1x128x128x128 : 0 < S1x128x128x128.numel
  shapeCasts_S1x128x128x128_S128x128x128 : S1x128x128x128.ShapeCasts S128x128x128
  shapeCasts_S128x128x128_S1x128x128x128 : S128x128x128.ShapeCasts S1x128x128x128
  dot_S16384x8_S8x128_S16384x128_1_0_0_1_n_n_wf : DotDims.WF S16384x8 S8x128 S16384x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x7.size a ≤ S8x256x7.size a
  hwx0_0 : ∀ i : grid0.Coords, EltTy.bits .f32 = 32 ∨ (Rect.block (s := S8x256x7) S1x128x7.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x7.size a ≤ S8x256x7.size a
  hwx0_1 : ∀ i : grid0.Coords, EltTy.bits .f32 = 32 ∨ (Rect.block (s := S8x256x7) S1x128x7.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x128.size a
  hwx0_2 : ∀ i : grid0.Coords, EltTy.bits .f32 = 32 ∨ (Rect.block (s := S8x128) S8x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x128x128.size a ≤ S8x256x256x128.size a
  hwx0_4 : ∀ i : grid0.Coords, EltTy.bits .f32 = 32 ∨ (Rect.block (s := S8x256x256x128) S1x128x128x128.size (cc0_transform_4 i) (hinb0_4 i)).WholeWords (EltTy.packing .f32)

variable [Facts₀]

def dot_S16384x8_S8x128_S16384x128_1_0_0_1_n_n : DotDims S16384x8 S8x128 S16384x128 where
  lhsContracting := [1]
  rhsContracting := [0]
  lhsNonContracting := [0]
  rhsNonContracting := [1]
  lhsBatch := []
  rhsBatch := []
  wf := dot_S16384x8_S8x128_S16384x128_1_0_0_1_n_n_wf

abbrev win0_0 : Pipeline.Window sig grid0 :=
  Pipeline.Window.ofSpec (Memref.whole main_arg0) S1x128x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x7.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128x128x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x256x7 : Shape := ⟨3, ![8, 256, 7]⟩
abbrev S128x8 : Shape := ⟨2, ![128, 8]⟩
abbrev S128 : Shape := ⟨1, ![128]⟩
abbrev S_ : Shape := ⟨0, ![]⟩
abbrev S8x256 : Shape := ⟨2, ![8, 256]⟩
abbrev S8x256x1x7 : Shape := ⟨4, ![8, 256, 1, 7]⟩
abbrev S8x1x256x7 : Shape := ⟨4, ![8, 1, 256, 7]⟩
abbrev S8x1x256x1 : Shape := ⟨4, ![8, 1, 256, 1]⟩
abbrev S8x1x256 : Shape := ⟨3, ![8, 1, 256]⟩
abbrev S8x256x1x1 : Shape := ⟨4, ![8, 256, 1, 1]⟩
abbrev S8x256x1 : Shape := ⟨3, ![8, 256, 1]⟩
abbrev S8x256x256 : Shape := ⟨3, ![8, 256, 256]⟩
abbrev S8x256x256x1 : Shape := ⟨4, ![8, 256, 256, 1]⟩
abbrev S8x256x256x6 : Shape := ⟨4, ![8, 256, 256, 6]⟩
abbrev S8x1x256x2 : Shape := ⟨4, ![8, 1, 256, 2]⟩
abbrev S8x256x256x2 : Shape := ⟨4, ![8, 256, 256, 2]⟩
abbrev S8x256x256x8 : Shape := ⟨4, ![8, 256, 256, 8]⟩
abbrev S8x256x256x128 : Shape := ⟨4, ![8, 256, 256, 128]⟩
abbrev S1x1x1x128 : Shape := ⟨4, ![1, 1, 1, 128]⟩

abbrev nBuf : Space → Nat
  | .hbm => 101
  | .vmem => 0
  | .smem => 0
  | _ => 0

abbrev bufTy : (tb : Table) → Fin (tcTables nBuf tb) → BufTy
  | .hbm, ⟨0, _⟩ => ⟨S8x256x7, .f32⟩
  | .hbm, ⟨1, _⟩ => ⟨S8x256x7, .f32⟩
  | .hbm, ⟨2, _⟩ => ⟨S128x8, .f32⟩
  | .hbm, ⟨3, _⟩ => ⟨S128, .f32⟩
  | .hbm, ⟨4, _⟩ => ⟨S_, .f32⟩
  | .hbm, ⟨5, _⟩ => ⟨S8x256x7, .f32⟩
  | .hbm, ⟨6, _⟩ => ⟨S8x256x7, .i1⟩
  | .hbm, ⟨7, _⟩ => ⟨S_, .i1⟩
  | .hbm, ⟨8, _⟩ => ⟨S8x256, .i1⟩
  | .hbm, ⟨9, _⟩ => ⟨S8x256, .i1⟩
  | .hbm, ⟨10, _⟩ => ⟨S8x256, .f32⟩
  | .hbm, ⟨11, _⟩ => ⟨S_, .f32⟩
  | .hbm, ⟨12, _⟩ => ⟨S8x256x7, .f32⟩
  | .hbm, ⟨13, _⟩ => ⟨S8x256x7, .i1⟩
  | .hbm, ⟨14, _⟩ => ⟨S_, .i1⟩
  | .hbm, ⟨15, _⟩ => ⟨S8x256, .i1⟩
  | .hbm, ⟨16, _⟩ => ⟨S8x256, .i1⟩
  | .hbm, ⟨17, _⟩ => ⟨S8x256, .f32⟩
  | .hbm, ⟨18, _⟩ => ⟨S8x256x1x7, .f32⟩
  | .hbm, ⟨19, _⟩ => ⟨S8x1x256x7, .f32⟩
  | .hbm, ⟨20, _⟩ => ⟨S8x1x256x1, .f32⟩
  | .hbm, ⟨21, _⟩ => ⟨S8x1x256, .f32⟩
  | .hbm, ⟨22, _⟩ => ⟨S8x256x1x1, .f32⟩
  | .hbm, ⟨23, _⟩ => ⟨S8x256x1, .f32⟩
  | .hbm, ⟨24, _⟩ => ⟨S8x256x256, .f32⟩
  | .hbm, ⟨25, _⟩ => ⟨S8x256x256, .f32⟩
  | .hbm, ⟨26, _⟩ => ⟨S8x256x256, .f32⟩
  | .hbm, ⟨27, _⟩ => ⟨S8x1x256x1, .f32⟩
  | .hbm, ⟨28, _⟩ => ⟨S8x1x256, .f32⟩
  | .hbm, ⟨29, _⟩ => ⟨S8x256x1x1, .f32⟩
  | .hbm, ⟨30, _⟩ => ⟨S8x256x1, .f32⟩
  | .hbm, ⟨31, _⟩ => ⟨S8x256x256, .f32⟩
  | .hbm, ⟨32, _⟩ => ⟨S8x256x256, .f32⟩
  | .hbm, ⟨33, _⟩ => ⟨S8x256x256, .f32⟩
  | .hbm, ⟨34, _⟩ => ⟨S8x256x1x1, .f32⟩
  | .hbm, ⟨35, _⟩ => ⟨S8x256x1, .f32⟩
  | .hbm, ⟨36, _⟩ => ⟨S8x256x1x1, .f32⟩
  | .hbm, ⟨37, _⟩ => ⟨S8x256x1, .f32⟩
  | .hbm, ⟨38, _⟩ => ⟨S8x1x256x1, .f32⟩
  | .hbm, ⟨39, _⟩ => ⟨S8x1x256, .f32⟩
  | .hbm, ⟨40, _⟩ => ⟨S8x1x256x1, .f32⟩
  | .hbm, ⟨41, _⟩ => ⟨S8x1x256, .f32⟩
  | .hbm, ⟨42, _⟩ => ⟨S8x256x256, .f32⟩
  | .hbm, ⟨43, _⟩ => ⟨S8x256x256, .f32⟩
  | .hbm, ⟨44, _⟩ => ⟨S8x256x256, .f32⟩
  | .hbm, ⟨45, _⟩ => ⟨S8x256x256, .f32⟩
  | .hbm, ⟨46, _⟩ => ⟨S8x256x256, .f32⟩
  | .hbm, ⟨47, _⟩ => ⟨S8x256x1, .f32⟩
  | .hbm, ⟨48, _⟩ => ⟨S8x256x256, .f32⟩
  | .hbm, ⟨49, _⟩ => ⟨S8x256x256, .f32⟩
  | .hbm, ⟨50, _⟩ => ⟨S8x256x256, .f32⟩
  | .hbm, ⟨51, _⟩ => ⟨S8x256x256, .f32⟩
  | .hbm, ⟨52, _⟩ => ⟨S8x256x256, .f32⟩
  | .hbm, ⟨53, _⟩ => ⟨S8x256x256, .f32⟩
  | .hbm, ⟨54, _⟩ => ⟨S8x256x256, .f32⟩
  | .hbm, ⟨55, _⟩ => ⟨S8x256x256, .f32⟩
  | .hbm, ⟨56, _⟩ => ⟨S8x256x256, .f32⟩
  | .hbm, ⟨57, _⟩ => ⟨S8x256x256, .f32⟩
  | .hbm, ⟨58, _⟩ => ⟨S8x256x256, .f32⟩
  | .hbm, ⟨59, _⟩ => ⟨S8x256x256, .f32⟩
  | .hbm, ⟨60, _⟩ => ⟨S8x256x256, .f32⟩
  | .hbm, ⟨61, _⟩ => ⟨S8x256x256, .f32⟩
  | .hbm, ⟨62, _⟩ => ⟨S8x256x256, .f32⟩
  | .hbm, ⟨63, _⟩ => ⟨S8x256x256, .f32⟩
  | .hbm, ⟨64, _⟩ => ⟨S8x256x256, .f32⟩
  | .hbm, ⟨65, _⟩ => ⟨S8x256x256, .f32⟩
  | .hbm, ⟨66, _⟩ => ⟨S8x256x256, .f32⟩
  | .hbm, ⟨67, _⟩ => ⟨S8x256x1, .f32⟩
  | .hbm, ⟨68, _⟩ => ⟨S8x1x256, .f32⟩
  | .hbm, ⟨69, _⟩ => ⟨S8x256x256, .f32⟩
  | .hbm, ⟨70, _⟩ => ⟨S8x256x256, .f32⟩
  | .hbm, ⟨71, _⟩ => ⟨S8x256x256, .f32⟩
  | .hbm, ⟨72, _⟩ => ⟨S8x256x256, .f32⟩
  | .hbm, ⟨73, _⟩ => ⟨S8x256x256, .f32⟩
  | .hbm, ⟨74, _⟩ => ⟨S8x256x256, .f32⟩
  | .hbm, ⟨75, _⟩ => ⟨S8x256x256, .f32⟩
  | .hbm, ⟨76, _⟩ => ⟨S8x1x256x1, .f32⟩
  | .hbm, ⟨77, _⟩ => ⟨S8x1x256, .f32⟩
  | .hbm, ⟨78, _⟩ => ⟨S8x256x256, .f32⟩
  | .hbm, ⟨79, _⟩ => ⟨S_, .f32⟩
  | .hbm, ⟨80, _⟩ => ⟨S8x256x256, .f32⟩
  | .hbm, ⟨81, _⟩ => ⟨S8x256x256, .f32⟩
  | .hbm, ⟨82, _⟩ => ⟨S_, .f32⟩
  | .hbm, ⟨83, _⟩ => ⟨S8x256x256, .f32⟩
  | .hbm, ⟨84, _⟩ => ⟨S8x256x256, .f32⟩
  | .hbm, ⟨85, _⟩ => ⟨S8x256x256, .f32⟩
  | .hbm, ⟨86, _⟩ => ⟨S8x256x256, .f32⟩
  | .hbm, ⟨87, _⟩ => ⟨S8x256x256x1, .f32⟩
  | .hbm, ⟨88, _⟩ => ⟨S8x256x256x1, .f32⟩
  | .hbm, ⟨89, _⟩ => ⟨S8x256x256x1, .f32⟩
  | .hbm, ⟨90, _⟩ => ⟨S8x256x256x1, .f32⟩
  | .hbm, ⟨91, _⟩ => ⟨S8x256x256x1, .f32⟩
  | .hbm, ⟨92, _⟩ => ⟨S8x256x256x1, .f32⟩
  | .hbm, ⟨93, _⟩ => ⟨S8x256x256x6, .f32⟩
  | .hbm, ⟨94, _⟩ => ⟨S8x1x256x2, .f32⟩
  | .hbm, ⟨95, _⟩ => ⟨S8x256x256x2, .f32⟩
  | .hbm, ⟨96, _⟩ => ⟨S8x256x256x8, .f32⟩
  | .hbm, ⟨97, _⟩ => ⟨S8x256x256x128, .f32⟩
  | .hbm, ⟨98, _⟩ => ⟨S1x1x1x128, .f32⟩
  | .hbm, ⟨99, _⟩ => ⟨S8x256x256x128, .f32⟩
  | .hbm, ⟨100, _⟩ => ⟨S8x256x256x128, .f32⟩
  | _, _ => ⟨S8x256x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_cst_2 : Ref sig .tc := ⟨.hbm, 79, rfl⟩
abbrev main_v71 : Ref sig .tc := ⟨.hbm, 80, rfl⟩
abbrev main_v72 : Ref sig .tc := ⟨.hbm, 81, rfl⟩
abbrev main_cst_3 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩

abbrev nD : Nat := 1
abbrev τ : Topo := Topo.v7x

variable {F : FTy → Type} [FloatOps F]

class Facts₀ : Prop where
  bcast_S_S8x256x7 : S_.BroadcastsInDim S8x256x7 (![] : Fin 0 → Fin S8x256x7.rank)
  reducesTo_S8x256x7_S8x256_d2 : S8x256x7.ReducesTo [2] S8x256
  h_S_ : 0 < S_.numel
  bcast_S8x256x7_S8x256x1x7_0_1_3 : S8x256x7.BroadcastsInDim S8x256x1x7 (![0, 1, 3] : Fin 3 → Fin S8x256x1x7.rank)
  bcast_S8x256x7_S8x1x256x7_0_2_3 : S8x256x7.BroadcastsInDim S8x1x256x7 (![0, 2, 3] : Fin 3 → Fin S8x1x256x7.rank)
  slices_S8x1x256x7_S8x1x256x1_0_0_0_0 : S8x1x256x7.Slices ![0, 0, 0, 0] S8x1x256x1
  shapeCasts_S8x1x256x1_S8x1x256 : S8x1x256x1.ShapeCasts S8x1x256
  slices_S8x256x1x7_S8x256x1x1_0_0_0_0 : S8x256x1x7.Slices ![0, 0, 0, 0] S8x256x1x1
  shapeCasts_S8x256x1x1_S8x256x1 : S8x256x1x1.ShapeCasts S8x256x1
  bcast_S8x1x256_S8x256x256_0_1_2 : S8x1x256.BroadcastsInDim S8x256x256 (![0, 1, 2] : Fin 3 → Fin S8x256x256.rank)
  bcast_S8x256x1_S8x256x256_0_1_2 : S8x256x1.BroadcastsInDim S8x256x256 (![0, 1, 2] : Fin 3 → Fin S8x256x256.rank)
  slices_S8x1x256x7_S8x1x256x1_0_0_0_1 : S8x1x256x7.Slices ![0, 0, 0, 1] S8x1x256x1
  slices_S8x256x1x7_S8x256x1x1_0_0_0_1 : S8x256x1x7.Slices ![0, 0, 0, 1] S8x256x1x1
  slices_S8x256x1x7_S8x256x1x1_0_0_0_3 : S8x256x1x7.Slices ![0, 0, 0, 3] S8x256x1x1
  slices_S8x256x1x7_S8x256x1x1_0_0_0_4 : S8x256x1x7.Slices ![0, 0, 0, 4] S8x256x1x1
  slices_S8x1x256x7_S8x1x256x1_0_0_0_3 : S8x1x256x7.Slices ![0, 0, 0, 3] S8x1x256x1
  slices_S8x1x256x7_S8x1x256x1_0_0_0_4 : S8x1x256x7.Slices ![0, 0, 0, 4] S8x1x256x1
  bcast_S8x256_S8x256x1_0_1 : S8x256.BroadcastsInDim S8x256x1 (![0, 1] : Fin 2 → Fin S8x256x1.rank)
  bcast_S8x256_S8x1x256_0_2 : S8x256.BroadcastsInDim S8x1x256 (![0, 2] : Fin 2 → Fin S8x1x256.rank)
  slices_S8x1x256x7_S8x1x256x1_0_0_0_2 : S8x1x256x7.Slices ![0, 0, 0, 2] S8x1x256x1
  bcast_S_S8x256x256 : S_.BroadcastsInDim S8x256x256 (![] : Fin 0 → Fin S8x256x256.rank)
  bcast_S8x256x256_S8x256x256x1_0_1_2 : S8x256x256.BroadcastsInDim S8x256x256x1 (![0, 1, 2] : Fin 3 → Fin S8x256x256x1.rank)
  concatenates_S8x256x256x1_S8x256x256x1_S8x256x256x1_S8x256x256x1_S8x256x256x1_S8x256x256x1_S8x256x256x6_d3 : Shape.Concatenates [S8x256x256x1, S8x256x256x1, S8x256x256x1, S8x256x256x1, S8x256x256x1, S8x256x256x1] S8x256x256x6 3
  slices_S8x1x256x7_S8x1x256x2_0_0_0_5 : S8x1x256x7.Slices ![0, 0, 0, 5] S8x1x256x2
  bcast_S8x1x256x2_S8x256x256x2_0_1_2_3 : S8x1x256x2.BroadcastsInDim S8x256x256x2 (![0, 1, 2, 3] : Fin 4 → Fin S8x256x256x2.rank)
  concatenates_S8x256x256x6_S8x256x256x2_S8x256x256x8_d3 : Shape.Concatenates [S8x256x256x6, S8x256x256x2] S8x256x256x8 3
  bcast_S128_S1x1x1x128_3 : S128.BroadcastsInDim S1x1x1x128 (![3] : Fin 1 → Fin S1x1x1x128.rank)
  bcast_S1x1x1x128_S8x256x256x128_0_1_2_3 : S1x1x1x128.BroadcastsInDim S8x256x256x128 (![0, 1, 2, 3] : Fin 4 → Fin S8x256x256x128.rank)
  dot_S8x256x256x8_S128x8_S8x256x256x128_3_1_012_0_n_n_wf : DotDims.WF S8x256x256x8 S128x8 S8x256x256x128 [3] [1] [0, 1, 2] [0] [] []

variable [Facts₀]

def dot_S8x256x256x8_S128x8_S8x256x256x128_3_1_012_0_n_n : DotDims S8x256x256x8 S128x8 S8x256x256x128 where
  lhsContracting := [3]
  rhsContracting := [1]
  lhsNonContracting := [0, 1, 2]
  rhsNonContracting := [0]
  lhsBatch := []
  rhsBatch := []
  wf := dot_S8x256x256x8_S128x8_S8x256x256x128_3_1_012_0_n_n_wf

class Facts : Prop extends Facts₀ where

variable [Facts]
-- ==== Proof.EdgeSpec.lean ====
/-
  The mathematics of the pairwise edge embedding, stated once over extended reals and used by both sides.

  Each agent is a row of seven features `[x, y, v, sin, cos, e₀, e₁]`. For a first agent `a` and a second agent `b` of one
  batch the eight edge features are: the displacement `b - a` rotated into `a`'s frame and divided by ten (two entries), the
  sine and cosine of the relative heading (two entries), those two again multiplied by `b`'s speed, and `b`'s two extra
  features. The first six carry the validity mask `flag a * flag b`, where an agent's flag is `0` when all seven of its
  features are zero and `1` otherwise. The result at `(batch, i, j, h)` is the product of that edge row with row `h` of the
  weight matrix, plus the bias at `h`.
-/
import Idealize.ShloMosaic.PureOps.Ideal
import Idealize.ShloMosaic.PureOps.Ideal.Laws
import Idealize.ShloMosaic.Lib.ValueIdx

noncomputable section

namespace Cert.EdgeSpec

open Idealize.ShloMosaic Idealize.ShloMosaic.ValueIdx

/-- An agent's validity flag: `0` when every one of its seven features is zero, `1` otherwise. -/
def flag (a : Fin 7 → EReal) : EReal := by
  classical exact if ∀ d, a d = 0 then 0 else 1

/-- The divisor of the two displacement features: the f32 pattern of ten. -/
abbrev ten : EReal := Ideal.ofBits .f32 0x41200000#32

/-- The displacement `b - a` along the first agent's heading, masked. -/
def alongE (a b : Fin 7 → EReal) : EReal := (a 4 * (b 0 - a 0) + a 3 * (b 1 - a 1)) * (flag a * flag b)
/-- The displacement `b - a` across the first agent's heading, masked. -/
def acrossE (a b : Fin 7 → EReal) : EReal := (-(a 3) * (b 0 - a 0) + a 4 * (b 1 - a 1)) * (flag a * flag b)
/-- The sine of the relative heading, masked. -/
def relSinE (a b : Fin 7 → EReal) : EReal := (b 3 * a 4 - b 4 * a 3) * (flag a * flag b)
/-- The cosine of the relative heading, masked. -/
def relCosE (a b : Fin 7 → EReal) : EReal := (b 4 * a 4 + b 3 * a 3) * (flag a * flag b)

/-- The eight edge features of the ordered pair of agents `(a, b)`. -/
def edge (a b : Fin 7 → EReal) : Fin 8 → EReal
  | ⟨0, _⟩ => Ideal.div (alongE a b) ten
  | ⟨1, _⟩ => Ideal.div (acrossE a b) ten
  | ⟨2, _⟩ => relSinE a b
  | ⟨3, _⟩ => relCosE a b
  | ⟨4, _⟩ => b 2 * relSinE a b
  | ⟨5, _⟩ => b 2 * relCosE a b
  | ⟨6, _⟩ => b 5
  | ⟨7, _⟩ => b 6
  | ⟨_ + 8, h⟩ => absurd h (by omega)

/-- One output entry from the two agents' rows, the weight row read as a function of the edge feature, and the bias entry. -/
def out (a b : Fin 7 → EReal) (w : Fin 8 → EReal) (β : EReal) : EReal := (∑ k : Fin 8, edge a b k * w k) + β

/-- The whole result array as one function of the four argument arrays. -/
def G (A₁ A₂ : (⟨3, ![8, 256, 7]⟩ : Shape).Idx → EReal) (W : (⟨2, ![128, 8]⟩ : Shape).Idx → EReal)
    (B : (⟨1, ![128]⟩ : Shape).Idx → EReal) : (⟨4, ![8, 256, 256, 128]⟩ : Shape).Idx → EReal := fun i =>
  out (fun d => A₁ (ix3 (i 0) (i 1) d)) (fun d => A₂ (ix3 (i 0) (i 2) d)) (fun k => W (ix2 (i 3) k)) (B (ix1 (i 3)))

end Cert.EdgeSpec

end
-- ==== Proof.EdgeLayout.lean ====
/-
  Re-laid values read at an index given by coordinates: the shape casts, broadcasts and concatenations through which
  the body builds its table of edge features out of columns of the agents' blocks. Each lemma says which entry of the
  operand an entry of the result is.
-/
import Idealize.ShloMosaic.Lib.ValueIdx
import Idealize.ShloMosaic.Lib.ValueLayout
import Idealize.ShloMosaic.Lib.Pipeline.Value

namespace Cert.EdgeLayout

open Idealize.ShloMosaic Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` cast to a vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A column `[a, 1]` broadcast along the rows of `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A matrix `[a, b]` cast to `[a, b, 1]` reads, at `(i, j, u)`, the matrix at `(i, j)`. -/
theorem shapeCast_ab_ab1_apply {a b : ℕ} (x : (⟨2, ![a, b]⟩ : Shape).Idx → α) (h : (⟨2, ![a, b]⟩ : Shape).ShapeCasts ⟨3, ![a, b, 1]⟩)
    (i : Fin a) (j : Fin b) (u : Fin 1) : shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    omega)

/-- One slab `[1, a, c]` broadcast to `[b, a, c]` reads, at `(p, q, e)`, the slab at `(q, e)`. -/
theorem broadcastTo_1ac_bac_apply {a b c : ℕ} (v : (⟨3, ![1, a, c]⟩ : Shape).Idx → α)
    (h : (⟨3, ![1, a, c]⟩ : Shape).Broadcasts ⟨3, ![b, a, c]⟩) (p : Fin b) (q : Fin a) (e : Fin c) :
    broadcastTo ⟨3, ![b, a, c]⟩ v h (ix3 p q e) = v (ix3 (0 : Fin 1) q e) := by
  refine broadcastTo_apply v h (ix3 p q e) (ix3 (0 : Fin 1) q e) fun ax => ?_
  match ax with
  | ⟨0, _⟩ => rfl
  | ⟨1, _⟩ =>
    show q.val = if a = 1 then 0 else q.val
    split
    · have := q.isLt; omega
    · rfl
  | ⟨2, _⟩ =>
    show e.val = if c = 1 then 0 else e.val
    split
    · have := e.isLt; omega
    · rfl

/-- One line `[1, 1, c]` broadcast to `[a, b, c]` reads, at `(p, q, e)`, the line at `e`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (e : Fin c) :
    broadcastTo ⟨3, ![a, b, c]⟩ v h (ix3 p q e) = v (ix3 (0 : Fin 1) (0 : Fin 1) e) := by
  refine broadcastTo_apply v h (ix3 p q e) (ix3 (0 : Fin 1) (0 : Fin 1) e) fun ax => ?_
  match ax with
  | ⟨0, _⟩ => rfl
  | ⟨1, _⟩ => rfl
  | ⟨2, _⟩ =>
    show e.val = if c = 1 then 0 else e.val
    split
    · have := e.isLt; omega
    · rfl

/-- A vector `[c]` cast to `[1, 1, c]` reads, at `(u, v, e)`, the vector at `e`. -/
theorem shapeCast_c_11c_apply {c : ℕ} (x : (⟨1, ![c]⟩ : Shape).Idx → α) (h : (⟨1, ![c]⟩ : Shape).ShapeCasts ⟨3, ![1, 1, c]⟩)
    (u v : Fin 1) (e : Fin c) : shapeCast ⟨3, ![1, 1, c]⟩ x h (ix3 u v e) = x (ix1 e) :=
  shapeCast_apply x h _ _ (by
    have hu : u.val = 0 := by omega
    have hv : v.val = 0 := by omega
    rw [Shape.rowMajor_val_three, Shape.rowMajor_val_one]
    show e.val = (u.val * 1 + v.val) * c + e.val
    rw [hu, hv]; simp)

/-- A table `[a, b, c]` with its first two axes merged, `[n, c]` with `n = a * b`, reads at row `r = p * b + q` the table at `(p, q)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (e : Fin c) (r : Fin n)
    (hr : r.val = p.val * b + q.val) : shapeCast ⟨2, ![n, c]⟩ x h (ix2 r e) = x (ix3 p q e) :=
  shapeCast_apply x h _ _ (by
    rw [Shape.rowMajor_val_three, Shape.rowMajor_val_two]
    show (p.val * b + q.val) * c + e.val = r.val * c + e.val
    rw [hr])

/-- A matrix `[n, c]` with its rows split in two axes, `[a, b, c]` with `n = a * b`, reads at `(p, q)` the matrix at row `p * b + q`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (e : Fin c) (r : Fin n)
    (hr : r.val = p.val * b + q.val) : shapeCast ⟨3, ![a, b, c]⟩ x h (ix3 p q e) = x (ix2 r e) :=
  shapeCast_apply x h _ _ (by
    rw [Shape.rowMajor_val_three, Shape.rowMajor_val_two]
    show r.val * c + e.val = (p.val * b + q.val) * c + e.val
    rw [hr])

end Cert.EdgeLayout
-- ==== Proof.KernelFlag.lean ====
/-
  The kernel's validity flag of an agent. The body tests a row of seven features for "all zero" with the vector unit's
  tools: it marks each zero entry with a one and every other entry with a zero, takes the minimum of the marks along the
  row (from plus infinity), asks whether that minimum is positive, complements the answer, widens the bit to a word and
  converts the word to a float. The minimum of the marks is positive exactly when every mark is one, that is when every
  entry is zero; so the float is zero for an all-zero row and one otherwise: the specification's `flag`.
-/
import proofs.«112012_j30537217474895_1_alg».proof.Proof.Gen.KernelIdeal.Skeleton
import proofs.«112012_j30537217474895_1_alg».proof.Proof.EdgeSpec
import Idealize.ShloMosaic.Lib.ValueIdx
import Idealize.ShloMosaic.Lib.ValueLayout
import Idealize.ShloMosaic.Lib.IdealHost
import Idealize.ShloMosaic.PureOps.Ideal.Laws
import Idealize.ShloMosaic.PureOps.Reduce

noncomputable section

namespace Cert.KernelIdeal.EdgeValue

open Cert.KernelIdeal Cert.KernelIdeal.Gen Idealize.ShloMosaic Idealize.ShloMosaic.ValueIdx

/-- In a `[128, 7]` array reduced along its rows, the source index over row `p` with coordinate `d` on the reduced axis is `(p, d)`. -/
theorem lift_row (hred : S128x7.Reduces [1] S128) (p : Fin 128) (d : Fin 7) :
    hred.lift (ix1 p) d = ix2 p d := by
  funext c
  apply Fin.ext
  match c with
  | ⟨0, _⟩ => rfl
  | ⟨1, _⟩ => rfl

/-- The f32 pattern of plus infinity denotes a positive extended real. -/
theorem ofBits_inf_pos : (0 : EReal) < Ideal.ofBits .f32 0x7F800000#32 := by
  simp [Ideal.ofBits, Ideal.ieee]

/-- The mark of one entry — one if the entry is zero, else zero — is positive exactly when the entry is zero. -/
theorem zeroMark_pos (x : EReal) :
    Ideal.ofBits .f32 0x00000000#32 < Scalar.select (FloatOps.cmpf (F := Ideal) (φ := .f32) .oeq x (FloatOps.ofBits .f32 0x00000000#32))
        (FloatOps.ofBits (F := Ideal) .f32 0x3F800000#32) (FloatOps.ofBits (F := Ideal) .f32 0x00000000#32) ↔ x = 0 := by
  rw [Ideal.cmpf_def]
  simp only [Ideal.ofBits_def, Ideal.ofBits_zero_f32, Ideal.ofBits_one_f32]
  unfold Ideal.cmp
  by_cases h : x = 0
  · simp [h, Scalar.select]
  · simp [h, Scalar.select]

/-- The minimum over a row of the marks is positive exactly when the whole row is zero. -/
theorem rowAllZero (X : FVec Ideal S128x7 .f32) (p : Fin 128) (hred : S128x7.Reduces [1] S128) (hφ : FKind.Formats .f32)
    (hacc : (0x7F800000#32 : BitVec 32) = FKind.minimumf.neutral .f32 hφ) :
    (Ideal.ofBits .f32 0x00000000#32 < multiReduction .minimumf [1] S128
        (select (cmpf .oeq X (broadcast S128x7 (FloatOps.ofBits .f32 0x00000000#32)))
          (broadcast S128x7 (FloatOps.ofBits .f32 0x3F800000#32)) (broadcast S128x7 (FloatOps.ofBits .f32 0x00000000#32)))
        0x7F800000#32 hred hφ hacc (ix1 p)) ↔ ∀ d : Fin 7, X (ix2 p d) = 0 := by
  rw [multiReduction_minimumf_eq_fold, hred.fold_filter_drop_single]
  change _ < Finset.fold min _ _ _ ↔ _
  rw [Finset.lt_fold_min]
  have e : ∀ d : Fin 7, (select (cmpf .oeq X (broadcast S128x7 (FloatOps.ofBits .f32 0x00000000#32)))
        (broadcast S128x7 (FloatOps.ofBits .f32 0x3F800000#32)) (broadcast S128x7 (FloatOps.ofBits .f32 0x00000000#32)) ∘ hred.lift (ix1 p)) d
      = Scalar.select (FloatOps.cmpf (F := Ideal) (φ := .f32) .oeq (X (ix2 p d)) (FloatOps.ofBits .f32 0x00000000#32))
        (FloatOps.ofBits (F := Ideal) .f32 0x3F800000#32) (FloatOps.ofBits (F := Ideal) .f32 0x00000000#32) := fun d => by
    show select _ _ _ (hred.lift (ix1 p) d) = _
    rw [lift_row hred p d]
    rfl
  constructor
  · rintro ⟨-, h⟩ d
    exact (zeroMark_pos _).1 (lt_of_lt_of_eq (h d (Finset.mem_univ _)) (e d))
  · intro h
    refine ⟨by rw [Ideal.ofBits_zero_f32]; exact ofBits_inf_pos, fun d _ => ?_⟩
    exact lt_of_lt_of_eq ((zeroMark_pos _).2 (h d)) (e d).symm

/-- The complemented, widened and converted answer to "is the minimum positive": zero when it is, one when it is not. -/
theorem flagWord (r : EReal) (P : Prop) {inst : Decidable P} (h : Ideal.ofBits .f32 0x00000000#32 < r ↔ P) :
    (FloatOps.sitofp (F := Ideal) .f32 ((IntOp.xori (FloatOps.cmpf (F := Ideal) (φ := .f32) .ogt r (FloatOps.ofBits .f32 0x00000000#32)) 1#1).setWidth 32) : EReal)
      = if P then 0 else 1 := by
  rw [Ideal.cmpf_def]
  unfold Ideal.cmp
  show ((((IntOp.xori (BitVec.ofBool (decide (Ideal.ofBits .f32 0x00000000#32 < r))) 1#1).setWidth 32).toInt : ℝ) : EReal) = _
  by_cases hp : P
  · rw [if_pos hp, decide_eq_true (h.2 hp)]
    show ((((0#32 : BitVec 32).toInt : ℤ) : ℝ) : EReal) = 0
    simp
  · rw [if_neg hp, decide_eq_false (fun hlt => hp (h.1 hlt))]
    show ((((1#32 : BitVec 32).toInt : ℤ) : ℝ) : EReal) = 1
    simp

/-- The first agents' flags, as the body computes them from their block. -/
theorem pay4_apply (x0 : Vec Ideal S1x128x7 .f32) (p : Fin 128) :
    k0_pay4 x0 (ix1 p) = EdgeSpec.flag (fun d => x0 (ix3 (0 : Fin 1) p d)) := by
  unfold k0_pay4 k0_pay2
  dsimp only
  rw [sitofp_apply, extui_apply]
  have key := rowAllZero (shapeCast S128x7 x0 shapeCasts_S1x128x7_S128x7) p reduces_S128x7_S128 (.inl rfl) rfl
  simp only [shapeCast_1ab_ab_apply] at key
  unfold EdgeSpec.flag
  exact flagWord _ _ key

/-- The second agents' flags, as the body computes them from their block. -/
theorem pay5_apply (x1 : Vec Ideal S1x128x7 .f32) (q : Fin 128) :
    k0_pay5 x1 (ix1 q) = EdgeSpec.flag (fun d => x1 (ix3 (0 : Fin 1) q d)) := by
  unfold k0_pay5 k0_pay3
  dsimp only
  rw [sitofp_apply, extui_apply]
  have key := rowAllZero (shapeCast S128x7 x1 shapeCasts_S1x128x7_S128x7) q reduces_S128x7_S128 (.inl rfl) rfl
  simp only [shapeCast_1ab_ab_apply] at key
  unfold EdgeSpec.flag
  exact flagWord _ _ key

end Cert.KernelIdeal.EdgeValue

end
-- ==== Proof.KernelCols.lean ====
/-
  The pieces of the body's arithmetic read at an index. A column of an agents' block is one feature of the 128 agents;
  a column broadcast along the rows of a 128 × 128 table gives the first agent's feature at `(p, q)`, a row broadcast down
  the table gives the second agent's. Each lemma reads one intermediate value of the body at `(p, q)` (or at `p`, or
  `q`) in terms of the entries of the values it is computed from.
-/
import proofs.«112012_j30537217474895_1_alg».proof.Proof.Gen.KernelIdeal.Skeleton
import proofs.«112012_j30537217474895_1_alg».proof.Proof.EdgeLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.EdgeValue

open Cert.KernelIdeal Cert.KernelIdeal.Gen Idealize.ShloMosaic Idealize.ShloMosaic.ValueIdx Cert.EdgeLayout

/-- The first agents' block without its unit axis. -/
theorem pay2_apply (x0 : Vec Ideal S1x128x7 .f32) (p : Fin 128) (d : Fin 7) :
    k0_pay2 x0 (ix2 p d) = x0 (ix3 (0 : Fin 1) p d) := by
  unfold k0_pay2; exact shapeCast_1ab_ab_apply _ _ p d

/-- The second agents' block without its unit axis. -/
theorem pay3_apply (x1 : Vec Ideal S1x128x7 .f32) (q : Fin 128) (d : Fin 7) :
    k0_pay3 x1 (ix2 q d) = x1 (ix3 (0 : Fin 1) q d) := by
  unfold k0_pay3; exact shapeCast_1ab_ab_apply _ _ q d

/-- Column `o` of a `[128, 7]` array, as a vector. -/
theorem col_apply (X : FVec Ideal S128x7 .f32) (p : Fin 128) (o : Nat) (ho : o < 7) (hs : S128x7.Slices ![0, o] S128x1)
    (hc : S128x1.ShapeCasts S128) :
    shapeCast S128 (extractStridedSlice S128x1 ![0, o] X hs) hc (ix1 p) = X (ix2 p ⟨o, ho⟩) := by
  rw [shapeCast_a1_a_apply]
  exact slice2_axis1_apply o X hs p (0 : Fin 1) ⟨o, ho⟩ rfl

theorem pay6_apply (x0 : Vec Ideal S1x128x7 .f32) (p : Fin 128) : k0_pay6 x0 (ix1 p) = x0 (ix3 (0 : Fin 1) p 0) := by
  unfold k0_pay6; exact (col_apply _ p 0 (by omega) _ _).trans (pay2_apply x0 p 0)
theorem pay7_apply (x0 : Vec Ideal S1x128x7 .f32) (p : Fin 128) : k0_pay7 x0 (ix1 p) = x0 (ix3 (0 : Fin 1) p 1) := by
  unfold k0_pay7; exact (col_apply _ p 1 (by omega) _ _).trans (pay2_apply x0 p 1)
theorem pay8_apply (x0 : Vec Ideal S1x128x7 .f32) (p : Fin 128) : k0_pay8 x0 (ix1 p) = x0 (ix3 (0 : Fin 1) p 3) := by
  unfold k0_pay8; exact (col_apply _ p 3 (by omega) _ _).trans (pay2_apply x0 p 3)
theorem pay9_apply (x0 : Vec Ideal S1x128x7 .f32) (p : Fin 128) : k0_pay9 x0 (ix1 p) = x0 (ix3 (0 : Fin 1) p 4) := by
  unfold k0_pay9; exact (col_apply _ p 4 (by omega) _ _).trans (pay2_apply x0 p 4)
theorem pay10_apply (x1 : Vec Ideal S1x128x7 .f32) (q : Fin 128) : k0_pay10 x1 (ix1 q) = x1 (ix3 (0 : Fin 1) q 0) := by
  unfold k0_pay10; exact (col_apply _ q 0 (by omega) _ _).trans (pay3_apply x1 q 0)
theorem pay11_apply (x1 : Vec Ideal S1x128x7 .f32) (q : Fin 128) : k0_pay11 x1 (ix1 q) = x1 (ix3 (0 : Fin 1) q 1) := by
  unfold k0_pay11; exact (col_apply _ q 1 (by omega) _ _).trans (pay3_apply x1 q 1)

/-- The second agents' speeds, still a column. -/
theorem pay12_apply (x1 : Vec Ideal S1x128x7 .f32) (q : Fin 128) (u : Fin 1) : k0_pay12 x1 (ix2 q u) = x1 (ix3 (0 : Fin 1) q 2) := by
  unfold k0_pay12
  exact (slice2_axis1_apply 2 _ _ q u (2 : Fin 7) (by have := u.isLt; show 2 = 2 + u.val; omega)).trans (pay3_apply x1 q 2)

/-- The second agents' two extra features. -/
theorem pay13_apply (X : FVec Ideal S128x7 .f32) (q : Fin 128) (e : Fin 2) (k : Fin 7) (hk : k.val = 5 + e.val) :
    k0_pay13 X (ix2 q e) = X (ix2 q k) := by
  unfold k0_pay13
  exact slice2_axis1_apply 5 X _ q e k hk

theorem pay16_apply (v : FVec Ideal S128 .f32) (p : Fin 128) (u : Fin 1) : k0_pay16 v (ix2 p u) = v (ix1 p) := by
  unfold k0_pay16; exact shapeCast_a_a1_apply _ _ p u
theorem pay17_apply (v : FVec Ideal S128 .f32) (p : Fin 128) (u : Fin 1) : k0_pay17 v (ix2 p u) = v (ix1 p) := by
  unfold k0_pay17; exact shapeCast_a_a1_apply _ _ p u

/-- The second agents' heading sines, as a row. -/
theorem pay18_apply (X : FVec Ideal S128x7 .f32) (q : Fin 128) (u : Fin 1) : k0_pay18 X (ix2 u q) = X (ix2 q 3) := by
  unfold k0_pay18
  exact (shapeCast_a_1a_apply _ _ u q).trans (col_apply X q 3 (by omega) _ _)
/-- The second agents' heading cosines, as a row. -/
theorem pay19_apply (X : FVec Ideal S128x7 .f32) (q : Fin 128) (u : Fin 1) : k0_pay19 X (ix2 u q) = X (ix2 q 4) := by
  unfold k0_pay19
  exact (shapeCast_a_1a_apply _ _ u q).trans (col_apply X q 4 (by omega) _ _)

/-- A displacement coordinate: the second agent's less the first's. -/
theorem pay14_apply (v27 v35 : FVec Ideal S128 .f32) (p q : Fin 128) :
    k0_pay14 v27 v35 (ix2 p q) = v35 (ix1 q) - v27 (ix1 p) := by
  unfold k0_pay14
  simp only [subf_apply, broadcastTo_1b_ab_apply, broadcastTo_a1_ab_apply, shapeCast_a_1a_apply, shapeCast_a_a1_apply]
theorem pay15_apply (v29 v37 : FVec Ideal S128 .f32) (p q : Fin 128) :
    k0_pay15 v29 v37 (ix2 p q) = v37 (ix1 q) - v29 (ix1 p) := by
  unfold k0_pay15
  simp only [subf_apply, broadcastTo_1b_ab_apply, broadcastTo_a1_ab_apply, shapeCast_a_1a_apply, shapeCast_a_a1_apply]

/-- The validity mask of the pair. -/
theorem pay20_apply (v14 v25 : FVec Ideal S128 .f32) (p q : Fin 128) :
    k0_pay20 v14 v25 (ix2 p q) = v14 (ix1 p) * v25 (ix1 q) := by
  unfold k0_pay20
  simp only [mulf_apply, broadcastTo_1b_ab_apply, broadcastTo_a1_ab_apply, shapeCast_a_1a_apply, shapeCast_a_a1_apply]

/-- The displacement along the first agent's heading, masked. -/
theorem pay21_apply (v14 v25 v27 v29 v31 v33 v35 v37 : FVec Ideal S128 .f32) (p q : Fin 128) :
    k0_pay21 v14 v25 v27 v29 v31 v33 v35 v37 (ix2 p q)
      = (v33 (ix1 p) * (v35 (ix1 q) - v27 (ix1 p)) + v31 (ix1 p) * (v37 (ix1 q) - v29 (ix1 p))) * (v14 (ix1 p) * v25 (ix1 q)) := by
  unfold k0_pay21
  simp only [mulf_apply, addf_apply, broadcastTo_a1_ab_apply, pay16_apply, pay17_apply, pay14_apply, pay15_apply, pay20_apply]

/-- The displacement across the first agent's heading, masked; the body negates by subtracting from zero. -/
theorem pay22_apply (v14 v25 v27 v29 v31 v33 v35 v37 : FVec Ideal S128 .f32) (p q : Fin 128) :
    k0_pay22 v14 v25 v27 v29 v31 v33 v35 v37 (ix2 p q)
      = (-(v31 (ix1 p)) * (v35 (ix1 q) - v27 (ix1 p)) + v33 (ix1 p) * (v37 (ix1 q) - v29 (ix1 p))) * (v14 (ix1 p) * v25 (ix1 q)) := by
  unfold k0_pay22
  simp only [mulf_apply, addf_apply, subf_apply, broadcast_apply, broadcastTo_a1_ab_apply, pay16_apply, pay17_apply, pay14_apply,
    pay15_apply, pay20_apply, Scalar.ofBits, Ideal.ofBits_def, Ideal.ofBits_zero_f32, zero_sub]

/-- The sine of the relative heading, masked. -/
theorem pay23_apply (X : FVec Ideal S128x7 .f32) (v14 v25 v31 v33 : FVec Ideal S128 .f32) (p q : Fin 128) :
    k0_pay23 X v14 v25 v31 v33 (ix2 p q)
      = (X (ix2 q 3) * v33 (ix1 p) - X (ix2 q 4) * v31 (ix1 p)) * (v14 (ix1 p) * v25 (ix1 q)) := by
  unfold k0_pay23
  simp only [mulf_apply, subf_apply, broadcastTo_a1_ab_apply, broadcastTo_1b_ab_apply, pay16_apply, pay17_apply, pay18_apply,
    pay19_apply, pay20_apply]

/-- The cosine of the relative heading, masked. -/
theorem pay24_apply (X : FVec Ideal S128x7 .f32) (v14 v25 v31 v33 : FVec Ideal S128 .f32) (p q : Fin 128) :
    k0_pay24 X v14 v25 v31 v33 (ix2 p q)
      = (X (ix2 q 4) * v33 (ix1 p) + X (ix2 q 3) * v31 (ix1 p)) * (v14 (ix1 p) * v25 (ix1 q)) := by
  unfold k0_pay24
  simp only [mulf_apply, addf_apply, broadcastTo_a1_ab_apply, broadcastTo_1b_ab_apply, pay16_apply, pay17_apply, pay18_apply,
    pay19_apply, pay20_apply]

/-- The second agent's speed, at every first agent. -/
theorem pay25_apply (v38 : FVec Ideal S128x1 .f32) (p q : Fin 128) : k0_pay25 v38 (ix2 p q) = v38 (ix2 q (0 : Fin 1)) := by
  unfold k0_pay25
  simp only [broadcastTo_1b_ab_apply, shapeCast_self, shapeCast_a_1a_apply, shapeCast_a1_a_apply]

end Cert.KernelIdeal.EdgeValue

end
-- ==== Proof.KernelTable.lean ====
/-
  The table of edge features and its product with the weights, read at an index.

  The body lays its six computed features and the second agents' two extra features side by side along a last axis
  of extent eight, merges the two agent axes into 16384 rows, and multiplies by the 8 × 128 transposed weights on the
  matrix unit into a zero accumulator. Entry `(p * 128 + q, h)` of the product is the sum over the eight features of
  the pair `(p, q)` of feature times weight.
-/
import proofs.«112012_j30537217474895_1_alg».proof.Proof.Gen.KernelIdeal.Skeleton
import proofs.«112012_j30537217474895_1_alg».proof.Proof.EdgeLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.EdgeValue

open Cert.KernelIdeal Cert.KernelIdeal.Gen Idealize.ShloMosaic Idealize.ShloMosaic.ValueIdx Cert.EdgeLayout

/-! ## The matrix product -/

theorem lhs_row (i : S16384x128.Idx) (k : dot_S16384x8_S8x128_S16384x128_1_0_0_1_n_n.contr.Idx) :
    (dot_S16384x8_S8x128_S16384x128_1_0_0_1_n_n.lhsIdx i k 0).val = (i 0).val := by
  unfold DotDims.lhsIdx
  rw [dif_neg (show ¬(0 : Fin S16384x8.rank) ∈ dot_S16384x8_S8x128_S16384x128_1_0_0_1_n_n.lhsBatch by decide), dif_pos (show (0 : Fin S16384x8.rank) ∈ dot_S16384x8_S8x128_S16384x128_1_0_0_1_n_n.lhsNonContracting by decide)]
  rfl
theorem lhs_feature (i : S16384x128.Idx) (k : dot_S16384x8_S8x128_S16384x128_1_0_0_1_n_n.contr.Idx) :
    (dot_S16384x8_S8x128_S16384x128_1_0_0_1_n_n.lhsIdx i k 1).val = (k ⟨0, by decide⟩).val :=
  dot_S16384x8_S8x128_S16384x128_1_0_0_1_n_n.lhsIdx_val_of_single rfl i k
theorem rhs_feature (i : S16384x128.Idx) (k : dot_S16384x8_S8x128_S16384x128_1_0_0_1_n_n.contr.Idx) :
    (dot_S16384x8_S8x128_S16384x128_1_0_0_1_n_n.rhsIdx i k 0).val = (k ⟨0, by decide⟩).val :=
  dot_S16384x8_S8x128_S16384x128_1_0_0_1_n_n.rhsIdx_val_of_single rfl i k
theorem rhs_col (i : S16384x128.Idx) (k : dot_S16384x8_S8x128_S16384x128_1_0_0_1_n_n.contr.Idx) :
    (dot_S16384x8_S8x128_S16384x128_1_0_0_1_n_n.rhsIdx i k 1).val = (i 1).val := by
  unfold DotDims.rhsIdx
  rw [dif_neg (show ¬(1 : Fin S8x128.rank) ∈ dot_S16384x8_S8x128_S16384x128_1_0_0_1_n_n.rhsBatch by decide), dif_pos (show (1 : Fin S8x128.rank) ∈ dot_S16384x8_S8x128_S16384x128_1_0_0_1_n_n.rhsNonContracting by decide)]
  rfl

/-- The product into a zero accumulator at `(r, h)`: the sum over the eight features of row `r` times column `h`. -/
theorem product_apply (L : FVec Ideal S16384x8 .bf16) (R : FVec Ideal S8x128 .bf16) (r : Fin 16384) (h : Fin 128) :
    matmul dot_S16384x8_S8x128_S16384x128_1_0_0_1_n_n none L R (constant S16384x128 .f32 0x00000000#32) (ix2 r h)
      = ∑ k : Fin 8, L (ix2 r k) * R (ix2 k h) := by
  simp only [matmul]
  rw [Ideal.matmul_constant_zero_apply, ← Equiv.sum_comp (ValueIdx.contrEquiv1 dot_S16384x8_S8x128_S16384x128_1_0_0_1_n_n 8 rfl rfl).symm]
  refine Finset.sum_congr rfl fun k _ => ?_
  have hk := ValueIdx.contrEquiv1_symm_val dot_S16384x8_S8x128_S16384x128_1_0_0_1_n_n 8 rfl rfl k
  have el : dot_S16384x8_S8x128_S16384x128_1_0_0_1_n_n.lhsIdx (ix2 r h) ((ValueIdx.contrEquiv1 dot_S16384x8_S8x128_S16384x128_1_0_0_1_n_n 8 rfl rfl).symm k) = ix2 r k := funext fun a => Fin.ext (by
    match a with
    | ⟨0, _⟩ => exact lhs_row _ _
    | ⟨1, _⟩ => exact (lhs_feature _ _).trans hk)
  have er : dot_S16384x8_S8x128_S16384x128_1_0_0_1_n_n.rhsIdx (ix2 r h) ((ValueIdx.contrEquiv1 dot_S16384x8_S8x128_S16384x128_1_0_0_1_n_n 8 rfl rfl).symm k) = ix2 k h := funext fun a => Fin.ext (by
    match a with
    | ⟨0, _⟩ => exact (rhs_feature _ _).trans hk
    | ⟨1, _⟩ => exact rhs_col _ _)
  rw [el, er]

/-! ## The table of features -/

/-- Six tables of extent one along the last axis laid side by side: entry `k` along that axis is piece `k`. -/
theorem six_apply {α : Type} (xs : List ((s : Shape) × (s.Idx → α))) (hc : Shape.Concatenates (xs.map (·.1)) S128x128x6 2)
    (p q : Fin 128) (k : Fin 6) (hk : k.val < xs.length) (x : S128x128x1.Idx → α) (hx : xs[k.val] = ⟨S128x128x1, x⟩)
    (hpre : (((xs.take k.val).map (·.1)).map fun s => if h : s.rank = S128x128x6.rank then s.size ((2 : Fin S128x128x6.rank).cast h.symm) else 0).sum = k.val) :
    concatenate S128x128x6 2 xs hc (ix3 p q k) = x (ix3 p q (0 : Fin 1)) :=
  concatenate_apply_piece 2 xs hc (ix3 p q k) k.val hk S128x128x1 x hx rfl k.val hpre (ix3 p q (0 : Fin 1))
    (fun b hb => by
      match b with
      | ⟨0, _⟩ => rfl
      | ⟨1, _⟩ => rfl
      | ⟨2, _⟩ => exact absurd rfl hb)
    (by show k.val + 0 = k.val; omega)

/-- The six computed features next to the two extra ones: below six, the first table. -/
theorem eight_left {α : Type} (A : S128x128x6.Idx → α) (B : S128x128x2.Idx → α)
    (hc : Shape.Concatenates [S128x128x6, S128x128x2] S128x128x8 2) (p q : Fin 128) (k : Fin 8) (k6 : Fin 6) (hk : k6.val = k.val) :
    concatenate S128x128x8 2 [⟨S128x128x6, A⟩, ⟨S128x128x2, B⟩] hc (ix3 p q k) = A (ix3 p q k6) :=
  concatenate_pair_apply_left 2 A B hc (ix3 p q k) rfl (ix3 p q k6) (fun b => by
    match b with
    | ⟨0, _⟩ => rfl
    | ⟨1, _⟩ => rfl
    | ⟨2, _⟩ => exact hk)

/-- From six on, the second table. -/
theorem eight_right {α : Type} (A : S128x128x6.Idx → α) (B : S128x128x2.Idx → α)
    (hc : Shape.Concatenates [S128x128x6, S128x128x2] S128x128x8 2) (p q : Fin 128) (k : Fin 8) (e : Fin 2) (hk : e.val + 6 = k.val) :
    concatenate S128x128x8 2 [⟨S128x128x6, A⟩, ⟨S128x128x2, B⟩] hc (ix3 p q k) = B (ix3 p q e) :=
  concatenate_pair_apply_right 2 A B hc (ix3 p q k) rfl rfl (ix3 p q e) (fun b hb => by
    match b with
    | ⟨0, _⟩ => rfl
    | ⟨1, _⟩ => rfl
    | ⟨2, _⟩ => exact absurd rfl hb) hk

end Cert.KernelIdeal.EdgeValue

end
-- ==== Proof.KernelPoint.lean ====
/-
  What the kernel's body leaves at one entry of its output block, as a function of the four input blocks.

  The body loads a block of 128 first agents, a block of 128 second agents, the transposed weight matrix and the bias,
  builds for every ordered pair of agents its row of eight edge features, multiplies the 16384 rows by the weights on
  the matrix unit, adds the bias and stores the result. At entry `(p, q, h)` of the block this is `EdgeSpec.out` of first
  agent `p`, second agent `q`, column `h` of the transposed weights and entry `h` of the bias.
-/
import proofs.«112012_j30537217474895_1_alg».proof.Proof.Gen.KernelIdeal.Skeleton
import proofs.«112012_j30537217474895_1_alg».proof.Proof.EdgeSpec
import proofs.«112012_j30537217474895_1_alg».proof.Proof.EdgeLayout
import proofs.«112012_j30537217474895_1_alg».proof.Proof.KernelFlag
import proofs.«112012_j30537217474895_1_alg».proof.Proof.KernelCols
import proofs.«112012_j30537217474895_1_alg».proof.Proof.KernelTable
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.EdgeValue

open Cert.KernelIdeal Cert.KernelIdeal.Gen Idealize.ShloMosaic Idealize.ShloMosaic.ValueIdx Cert.EdgeLayout

/-- The value the body stores, over the four loaded blocks (the payloads of the body's one store, composed). -/
def bodyVal {F : FTy → Type} [FloatOps F] (x0 x1 : Vec F S1x128x7 .f32) (x2 : Vec F S8x128 .f32) (x3 : Vec F S128 .f32) :
    FVec F S1x128x128x128 .f32 :=
  k0_pay1 (k0_pay13 (k0_pay3 x1))
    (k0_pay21 (k0_pay4 x0) (k0_pay5 x1) (k0_pay6 x0) (k0_pay7 x0) (k0_pay8 x0) (k0_pay9 x0) (k0_pay10 x1) (k0_pay11 x1))
    (k0_pay22 (k0_pay4 x0) (k0_pay5 x1) (k0_pay6 x0) (k0_pay7 x0) (k0_pay8 x0) (k0_pay9 x0) (k0_pay10 x1) (k0_pay11 x1))
    (k0_pay23 (k0_pay3 x1) (k0_pay4 x0) (k0_pay5 x1) (k0_pay8 x0) (k0_pay9 x0))
    (k0_pay24 (k0_pay3 x1) (k0_pay4 x0) (k0_pay5 x1) (k0_pay8 x0) (k0_pay9 x0))
    (k0_pay25 (k0_pay12 x1)) (Scalar.ofBits .f32 0x41200000#32) x2 x3

/-- The eight features of the pair `(p, q)` as the body's table holds them, over the values the table is laid out from:
    the two masked displacements divided by ten, the masked sine and cosine of the relative heading, those two times
    the second agent's speed, and the second agent's two extra features. -/
def feature (v44 : FVec Ideal S128x2 .f32) (v90 v91 v92 v93 v96 : FVec Ideal S128x128 .f32) (cst : Ideal .f32)
    (p q : Fin 128) : Fin 8 → EReal
  | ⟨0, _⟩ => Ideal.div (v90 (ix2 p q)) cst
  | ⟨1, _⟩ => Ideal.div (v91 (ix2 p q)) (Ideal.ofBits .f32 0x41200000#32)
  | ⟨2, _⟩ => v92 (ix2 p q)
  | ⟨3, _⟩ => v93 (ix2 p q)
  | ⟨4, _⟩ => v96 (ix2 p q) * v92 (ix2 p q)
  | ⟨5, _⟩ => v96 (ix2 p q) * v93 (ix2 p q)
  | ⟨6, _⟩ => v44 (ix2 q 0)
  | ⟨7, _⟩ => v44 (ix2 q 1)
  | ⟨_ + 8, h⟩ => absurd h (by omega)

/-- The body's table at `(p, q, k)` is feature `k` of the pair. -/
theorem table_apply (v44 : FVec Ideal S128x2 .f32) (v90 v91 v92 v93 v96 : FVec Ideal S128x128 .f32) (cst : Ideal .f32)
    (p q : Fin 128) (k : Fin 8) :
    concatenate S128x128x8 2
        [⟨S128x128x6, concatenate S128x128x6 2
            [⟨S128x128x1, shapeCast S128x128x1 (divf v90 (broadcast S128x128 cst)) shapeCasts_S128x128_S128x128x1⟩,
             ⟨S128x128x1, shapeCast S128x128x1 (divf v91 (broadcast S128x128 (FloatOps.ofBits .f32 0x41200000#32))) shapeCasts_S128x128_S128x128x1⟩,
             ⟨S128x128x1, shapeCast S128x128x1 v92 shapeCasts_S128x128_S128x128x1⟩,
             ⟨S128x128x1, shapeCast S128x128x1 v93 shapeCasts_S128x128_S128x128x1⟩,
             ⟨S128x128x1, shapeCast S128x128x1 (mulf v96 v92) shapeCasts_S128x128_S128x128x1⟩,
             ⟨S128x128x1, shapeCast S128x128x1 (mulf v96 v93) shapeCasts_S128x128_S128x128x1⟩]
            concatenates_S128x128x1_S128x128x1_S128x128x1_S128x128x1_S128x128x1_S128x128x1_S128x128x6_d2⟩,
         ⟨S128x128x2, broadcastTo S128x128x2 (shapeCast S1x128x2 (shapeCast S1x128x2 v44 shapeCasts_S128x2_S1x128x2) shapeCasts_S1x128x2_S1x128x2)
            broadcasts_S1x128x2_S128x128x2⟩]
        concatenates_S128x128x6_S128x128x2_S128x128x8_d2 (ix3 p q k)
      = feature v44 v90 v91 v92 v93 v96 cst p q k := by
  match k with
  | ⟨0, _⟩ =>
    refine (eight_left _ _ _ p q _ (0 : Fin 6) rfl).trans ?_
    refine (six_apply _ _ p q (0 : Fin 6) (by simp) _ rfl rfl).trans ?_
    rw [shapeCast_ab_ab1_apply, divf_apply, broadcast_apply]; rfl
  | ⟨1, _⟩ =>
    refine (eight_left _ _ _ p q _ (1 : Fin 6) rfl).trans ?_
    refine (six_apply _ _ p q (1 : Fin 6) (by simp) _ rfl rfl).trans ?_
    rw [shapeCast_ab_ab1_apply, divf_apply, broadcast_apply]; rfl
  | ⟨2, _⟩ =>
    refine (eight_left _ _ _ p q _ (2 : Fin 6) rfl).trans ?_
    refine (six_apply _ _ p q (2 : Fin 6) (by simp) _ rfl rfl).trans ?_
    rw [shapeCast_ab_ab1_apply]; rfl
  | ⟨3, _⟩ =>
    refine (eight_left _ _ _ p q _ (3 : Fin 6) rfl).trans ?_
    refine (six_apply _ _ p q (3 : Fin 6) (by simp) _ rfl rfl).trans ?_
    rw [shapeCast_ab_ab1_apply]; rfl
  | ⟨4, _⟩ =>
    refine (eight_left _ _ _ p q _ (4 : Fin 6) rfl).trans ?_
    refine (six_apply _ _ p q (4 : Fin 6) (by simp) _ rfl rfl).trans ?_
    rw [shapeCast_ab_ab1_apply, mulf_apply]; rfl
  | ⟨5, _⟩ =>
    refine (eight_left _ _ _ p q _ (5 : Fin 6) rfl).trans ?_
    refine (six_apply _ _ p q (5 : Fin 6) (by simp) _ rfl rfl).trans ?_
    rw [shapeCast_ab_ab1_apply, mulf_apply]; rfl
  | ⟨6, _⟩ =>
    refine (eight_right _ _ _ p q _ (0 : Fin 2) rfl).trans ?_
    rw [broadcastTo_1ac_bac_apply, shapeCast_self, shapeCast_ab_1ab_apply]; rfl
  | ⟨7, _⟩ =>
    refine (eight_right _ _ _ p q _ (1 : Fin 2) rfl).trans ?_
    rw [broadcastTo_1ac_bac_apply, shapeCast_self, shapeCast_ab_1ab_apply]; rfl

/-- What the body stores at `(p, q, h)`: the pair's features times column `h` of the transposed weights, summed, plus the bias. -/
theorem store_apply (v44 : FVec Ideal S128x2 .f32) (v90 v91 v92 v93 v96 : FVec Ideal S128x128 .f32) (cst : Ideal .f32)
    (v116 : Vec Ideal S8x128 .f32) (v121 : Vec Ideal S128 .f32) (p q h : Fin 128) :
    k0_pay1 v44 v90 v91 v92 v93 v96 cst v116 v121 (ix4 (0 : Fin 1) p q h)
      = (∑ k : Fin 8, feature v44 v90 v91 v92 v93 v96 cst p q k * v116 (ix2 k h)) + v121 (ix1 h) := by
  unfold k0_pay1
  rw [shapeCast_abc_1abc_apply, addf_apply, broadcastTo_11c_abc_apply, shapeCast_c_11c_apply,
    shapeCast_nc_abc_apply _ _ p q h ⟨p.val * 128 + q.val, by have := p.isLt; have := q.isLt; omega⟩ rfl,
    product_apply]
  refine congrArg (· + v121 (ix1 h)) (Finset.sum_congr rfl fun k _ => ?_)
  rw [truncf_apply, truncf_apply, shapeCast_abc_nc_apply _ _ p q k _ rfl, table_apply, shapeCast_self]

/-- The features the body computes from the two agents' blocks are the specification's edge features. -/
theorem feature_eq (x0 x1 : Vec Ideal S1x128x7 .f32) (p q : Fin 128) (k : Fin 8) :
    feature (k0_pay13 (k0_pay3 x1))
      (k0_pay21 (k0_pay4 x0) (k0_pay5 x1) (k0_pay6 x0) (k0_pay7 x0) (k0_pay8 x0) (k0_pay9 x0) (k0_pay10 x1) (k0_pay11 x1))
      (k0_pay22 (k0_pay4 x0) (k0_pay5 x1) (k0_pay6 x0) (k0_pay7 x0) (k0_pay8 x0) (k0_pay9 x0) (k0_pay10 x1) (k0_pay11 x1))
      (k0_pay23 (k0_pay3 x1) (k0_pay4 x0) (k0_pay5 x1) (k0_pay8 x0) (k0_pay9 x0))
      (k0_pay24 (k0_pay3 x1) (k0_pay4 x0) (k0_pay5 x1) (k0_pay8 x0) (k0_pay9 x0))
      (k0_pay25 (k0_pay12 x1)) (Scalar.ofBits .f32 0x41200000#32) p q k
    = EdgeSpec.edge (fun d => x0 (ix3 (0 : Fin 1) p d)) (fun d => x1 (ix3 (0 : Fin 1) q d)) k := by
  match k with
  | ⟨0, _⟩ =>
    show Ideal.div _ _ = Ideal.div _ _
    rw [pay21_apply, pay4_apply, pay5_apply, pay6_apply, pay7_apply, pay8_apply, pay9_apply, pay10_apply, pay11_apply]
    rfl
  | ⟨1, _⟩ =>
    show Ideal.div _ _ = Ideal.div _ _
    rw [pay22_apply, pay4_apply, pay5_apply, pay6_apply, pay7_apply, pay8_apply, pay9_apply, pay10_apply, pay11_apply]
    rfl
  | ⟨2, _⟩ =>
    show k0_pay23 (k0_pay3 x1) (k0_pay4 x0) (k0_pay5 x1) (k0_pay8 x0) (k0_pay9 x0) (ix2 p q) = EdgeSpec.relSinE (fun d => x0 (ix3 (0 : Fin 1) p d)) (fun d => x1 (ix3 (0 : Fin 1) q d))
    rw [pay23_apply, pay3_apply, pay3_apply, pay4_apply, pay5_apply, pay8_apply, pay9_apply]
    rfl
  | ⟨3, _⟩ =>
    show k0_pay24 (k0_pay3 x1) (k0_pay4 x0) (k0_pay5 x1) (k0_pay8 x0) (k0_pay9 x0) (ix2 p q) = EdgeSpec.relCosE (fun d => x0 (ix3 (0 : Fin 1) p d)) (fun d => x1 (ix3 (0 : Fin 1) q d))
    rw [pay24_apply, pay3_apply, pay3_apply, pay4_apply, pay5_apply, pay8_apply, pay9_apply]
    rfl
  | ⟨4, _⟩ =>
    show k0_pay25 (F := Ideal) _ (ix2 p q) * k0_pay23 (F := Ideal) _ _ _ _ _ (ix2 p q) = _ * EdgeSpec.relSinE _ _
    rw [pay25_apply, pay12_apply, pay23_apply, pay3_apply, pay3_apply, pay4_apply, pay5_apply, pay8_apply, pay9_apply]
    rfl
  | ⟨5, _⟩ =>
    show k0_pay25 (F := Ideal) _ (ix2 p q) * k0_pay24 (F := Ideal) _ _ _ _ _ (ix2 p q) = _ * EdgeSpec.relCosE _ _
    rw [pay25_apply, pay12_apply, pay24_apply, pay3_apply, pay3_apply, pay4_apply, pay5_apply, pay8_apply, pay9_apply]
    rfl
  | ⟨6, _⟩ =>
    show k0_pay13 (k0_pay3 x1) (ix2 q 0) = x1 (ix3 (0 : Fin 1) q 5)
    rw [pay13_apply _ q 0 (5 : Fin 7) rfl, pay3_apply]
  | ⟨7, _⟩ =>
    show k0_pay13 (k0_pay3 x1) (ix2 q 1) = x1 (ix3 (0 : Fin 1) q 6)
    rw [pay13_apply _ q 1 (6 : Fin 7) rfl, pay3_apply]

/-- The body's stored value at entry `(p, q, h)` of the block. -/
theorem body_apply (x0 x1 : Vec Ideal S1x128x7 .f32) (x2 : Vec Ideal S8x128 .f32) (x3 : Vec Ideal S128 .f32)
    (p q h : Fin 128) :
    bodyVal x0 x1 x2 x3 (ix4 (0 : Fin 1) p q h)
      = EdgeSpec.out (fun d => x0 (ix3 (0 : Fin 1) p d)) (fun d => x1 (ix3 (0 : Fin 1) q d)) (fun k => x2 (ix2 k h)) (x3 (ix1 h)) := by
  unfold bodyVal
  rw [store_apply]
  unfold EdgeSpec.out
  exact congrArg (· + x3 (ix1 h)) (Finset.sum_congr rfl fun k _ => by rw [feature_eq])

end Cert.KernelIdeal.EdgeValue

end
-- ==== Proof.KernelArray.lean ====
/-
  From the kernel's blocks to its whole result array.

  The grid has 8 × 2 × 2 points. The point with coordinates (bb, i, j) reads rows 128 i … 128 i + 127 of batch bb of the first
  agents, rows 128 j … 128 j + 127 of batch bb of the second agents, the whole transposed weight matrix and the whole bias, and
  writes the block (bb, i, j, 0) of extents 1 × 128 × 128 × 128 of the result. The transposed weight matrix is the weight
  argument transposed by the one host operation before the region. What a point writes at entry (p, q, h) of its block is
  the edge embedding of first agent 128 i + p and second agent 128 j + q of batch bb against weight row h and bias entry h:
  the entry (bb, 128 i + p, 128 j + q, h) of the specification array. The 32 blocks tile the result array, so the array
  ends holding the specification.
-/
import proofs.«112012_j30537217474895_1_alg».proof.Proof.Gen.KernelIdeal.Value
import proofs.«112012_j30537217474895_1_alg».proof.Proof.KernelPoint
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.EdgeArray

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The transposed weights -/

/-- The region finds the transposed weight matrix at the transpose of the weight argument. -/
theorem weights_entry (c : Dev nD) :
    (V m c main_v0 : S8x128.Idx → EReal)
      = transpose S8x128 [1, 0] (m ((c : Thread nD τ).loc main_arg2)) transposes_S128x8_S8x128_1_0 := by
  dsimp only [Gen.V, Gen.hostOps0]; after_results

/-- Entry (k, h) of the transposed weight matrix is entry (h, k) of the weight argument. -/
theorem weights_entry_apply (c : Dev nD) (k : Fin 8) (h : Fin 128) :
    (V m c main_v0 : S8x128.Idx → EReal) (ix2 k h)
      = (m ((c : Thread nD τ).loc main_arg2) : S128x8.Idx → EReal) (ix2 h k) := by
  rw [weights_entry]; exact transpose_ix2_apply _ _ k h

/-! ## The block indices of the five windows over the grid -/

/-- The first agents' block moves with the result's block on the batch and first-agent axes, the second agents' on the
    batch and second-agent axes; the weights and the bias stay whole; the result's block index is (bb, i, j, 0). -/
theorem block_indices : ∀ t : Fin cfg0.N,
    win0_0.index t (0 : Fin 3) = win0_4.index t (0 : Fin 4)
    ∧ win0_0.index t (1 : Fin 3) = win0_4.index t (1 : Fin 4)
    ∧ win0_0.index t (2 : Fin 3) = 0
    ∧ win0_1.index t (0 : Fin 3) = win0_4.index t (0 : Fin 4)
    ∧ win0_1.index t (1 : Fin 3) = win0_4.index t (2 : Fin 4)
    ∧ win0_1.index t (2 : Fin 3) = 0
    ∧ win0_2.index t (0 : Fin 2) = 0
    ∧ win0_2.index t (1 : Fin 2) = 0
    ∧ win0_3.index t (0 : Fin 1) = 0
    ∧ win0_4.index t (3 : Fin 4) = 0
    ∧ win0_4.index t (0 : Fin 4) ≤ 7
    ∧ win0_4.index t (1 : Fin 4) ≤ 1
    ∧ win0_4.index t (2 : Fin 4) ≤ 1 :=
  (by decide +kernel : ∀ t : Fin grid0.N, _)

/-- Every block (bb, i, j, 0) of the result is some point's. -/
theorem block_onto : ∀ (q0 : Fin 8) (q1 : Fin 2) (q2 : Fin 2), ∃ t : Fin cfg0.N, win0_4.index t = ![q0.val, q1.val, q2.val, 0] :=
  (by decide +kernel : ∀ (q0 : Fin 8) (q1 : Fin 2) (q2 : Fin 2), ∃ t : Fin grid0.N, win0_4.index t = ![q0.val, q1.val, q2.val, 0])

/-! ## Each input block read where the result's block says -/

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- Entry (0, p, d) of the first agents' block at point t is feature d of the agent in row 128 i + p of batch bb. -/
theorem first_block_apply (c : Dev nD) (t : Fin cfg0.N) (p : Fin 128) (d : Fin 7) (k : S8x256x7.Idx)
    (hk0 : (k 0).val = win0_4.index t (0 : Fin 4)) (hk1 : (k 1).val = win0_4.index t (1 : Fin 4) * 128 + p.val)
    (hk2 : (k 2).val = d.val) :
    (iblk m c 0 t : Vec Ideal S1x128x7 .f32) (ix3 (0 : Fin 1) p d)
      = (m ((c : Thread nD τ).loc main_arg0) : S8x256x7.Idx → EReal) k := by
  obtain ⟨e0, e1, e2, -⟩ := block_indices t
  rw [← V_main_arg0 m c]
  show V m c main_arg0 (((cfg0.win 0).blk t).view.emb (ix3 (0 : Fin 1) p d)) = V m c main_arg0 k
  refine congrArg _ (funext fun a => Fin.ext ?_)
  match a with
  | ⟨0, _⟩ => show win0_0.index t (0 : Fin 3) * 1 + 1 * 0 = (k 0).val; omega
  | ⟨1, _⟩ => show win0_0.index t (1 : Fin 3) * 128 + 1 * p.val = (k 1).val; omega
  | ⟨2, _⟩ => show win0_0.index t (2 : Fin 3) * 7 + 1 * d.val = (k 2).val; omega

/-- Entry (0, q, d) of the second agents' block at point t is feature d of the agent in row 128 j + q of batch bb. -/
theorem second_block_apply (c : Dev nD) (t : Fin cfg0.N) (q : Fin 128) (d : Fin 7) (k : S8x256x7.Idx)
    (hk0 : (k 0).val = win0_4.index t (0 : Fin 4)) (hk1 : (k 1).val = win0_4.index t (2 : Fin 4) * 128 + q.val)
    (hk2 : (k 2).val = d.val) :
    (iblk m c 1 t : Vec Ideal S1x128x7 .f32) (ix3 (0 : Fin 1) q d)
      = (m ((c : Thread nD τ).loc main_arg1) : S8x256x7.Idx → EReal) k := by
  obtain ⟨-, -, -, e0, e1, e2, -⟩ := block_indices t
  rw [← V_main_arg1 m c]
  show V m c main_arg1 (((cfg0.win 1).blk t).view.emb (ix3 (0 : Fin 1) q d)) = V m c main_arg1 k
  refine congrArg _ (funext fun a => Fin.ext ?_)
  match a with
  | ⟨0, _⟩ => show win0_1.index t (0 : Fin 3) * 1 + 1 * 0 = (k 0).val; omega
  | ⟨1, _⟩ => show win0_1.index t (1 : Fin 3) * 128 + 1 * q.val = (k 1).val; omega
  | ⟨2, _⟩ => show win0_1.index t (2 : Fin 3) * 7 + 1 * d.val = (k 2).val; omega

/-- Entry (k, h) of the transposed weights' block at any point is entry (h, k) of the weight argument. -/
theorem weight_block_apply (c : Dev nD) (t : Fin cfg0.N) (k : Fin 8) (h : Fin 128) (j : S128x8.Idx)
    (hj0 : (j 0).val = h.val) (hj1 : (j 1).val = k.val) :
    (iblk m c 2 t : Vec Ideal S8x128 .f32) (ix2 k h)
      = (m ((c : Thread nD τ).loc main_arg2) : S128x8.Idx → EReal) j := by
  obtain ⟨-, -, -, -, -, -, e0, e1, -⟩ := block_indices t
  have hj : j = ix2 h k := by
    funext a
    match a with
    | ⟨0, _⟩ => exact Fin.ext hj0
    | ⟨1, _⟩ => exact Fin.ext hj1
  rw [hj, ← weights_entry_apply m c k h]
  show V m c main_v0 (((cfg0.win 2).blk t).view.emb (ix2 k h)) = V m c main_v0 (ix2 k h)
  refine congrArg _ (funext fun a => Fin.ext ?_)
  match a with
  | ⟨0, _⟩ => show win0_2.index t (0 : Fin 2) * 8 + 1 * k.val = k.val; omega
  | ⟨1, _⟩ => show win0_2.index t (1 : Fin 2) * 128 + 1 * h.val = h.val; omega

/-- Entry h of the bias block at any point is entry h of the bias argument. -/
theorem bias_block_apply (c : Dev nD) (t : Fin cfg0.N) (h : Fin 128) (j : S128.Idx) (hj0 : (j 0).val = h.val) :
    (iblk m c 3 t : Vec Ideal S128 .f32) (ix1 h) = (m ((c : Thread nD τ).loc main_arg3) : S128.Idx → EReal) j := by
  obtain ⟨-, -, -, -, -, -, -, -, e0, -⟩ := block_indices t
  rw [← V_main_arg3 m c]
  show V m c main_arg3 (((cfg0.win 3).blk t).view.emb (ix1 h)) = V m c main_arg3 j
  refine congrArg _ (funext fun a => Fin.ext ?_)
  match a with
  | ⟨0, _⟩ => show win0_3.index t (0 : Fin 1) * 128 + 1 * h.val = (j 0).val; omega

/-! ## What a point writes back -/

/-- The specification array of the four argument arrays as launched. -/
abbrev spec (c : Dev nD) : S8x256x256x128.Idx → EReal :=
  EdgeSpec.G (m ((c : Thread nD τ).loc main_arg0)) (m ((c : Thread nD τ).loc main_arg1))
    (m ((c : Thread nD τ).loc main_arg2)) (m ((c : Thread nD τ).loc main_arg3))

theorem out_congr {a a' b b' : Fin 7 → EReal} {w w' : Fin 8 → EReal} {β β' : EReal}
    (ha : a = a') (hb : b = b') (hw : w = w') (hβ : β = β') : EdgeSpec.out a b w β = EdgeSpec.out a' b' w' β' := by
  subst ha hb hw hβ; rfl

/-- The body's value at entry (p, q, h) of point t's block is the specification at the array index i with coordinates
    (bb, 128 i + p, 128 j + q, h). -/
theorem point_value (c : Dev nD) (t : Fin cfg0.N) (p q h : Fin 128) (i : S8x256x256x128.Idx)
    (h0 : (i 0).val = win0_4.index t (0 : Fin 4)) (h1 : (i 1).val = win0_4.index t (1 : Fin 4) * 128 + p.val)
    (h2 : (i 2).val = win0_4.index t (2 : Fin 4) * 128 + q.val) (h3 : (i 3).val = h.val) :
    EdgeValue.bodyVal (iblk m c 0 t) (iblk m c 1 t) (iblk m c 2 t) (iblk m c 3 t) (ix4 (0 : Fin 1) p q h) = spec m c i := by
  refine (EdgeValue.body_apply (iblk m c 0 t) (iblk m c 1 t) (iblk m c 2 t) (iblk m c 3 t) p q h).trans ?_
  show _ = EdgeSpec.out _ _ _ _
  refine out_congr (funext fun d => ?_) (funext fun d => ?_) (funext fun k => ?_) ?_
  · exact first_block_apply m c t p d _ h0 h1 rfl
  · exact second_block_apply m c t q d _ h0 h2 rfl
  · exact weight_block_apply m c t k h _ h3 rfl
  · exact bias_block_apply m c t h _ h3

/-- What point t writes back is block t of the specification array. -/
theorem flushed_eq (c : Dev nD) (t : Fin cfg0.N) :
    (dats m 0 c).flushed 4 t = ((cfg0.win 4).blk t).view.read (Elt Ideal) (spec m c) := by
  rw [Value.flushed4]
  unfold Gen.out0_4
  rw [View.canon_unit_zero zeros4]
  simp only [View.ld_unit_zero (S := S1x128x7) zeros3, View.ld_unit_zero (S := S8x128) zeros2, View.ld_unit_zero (S := S128) zeros1]
  obtain ⟨-, -, -, -, -, -, -, -, -, e3, -⟩ := block_indices t
  refine funext fun (y : S1x128x128x128.Idx) => ?_
  obtain ⟨a, p, q, h, rfl⟩ : ∃ (a : Fin 1) (p q h : Fin 128), y = ix4 a p q h := ⟨y 0, y 1, y 2, y 3, eq_ix4 y⟩
  obtain rfl : a = 0 := Subsingleton.elim _ _
  show EdgeValue.bodyVal (iblk m c 0 t) (iblk m c 1 t) (iblk m c 2 t) (iblk m c 3 t) (ix4 (0 : Fin 1) p q h)
    = spec m c (((cfg0.win 4).blk t).view.emb (ix4 (0 : Fin 1) p q h))
  refine point_value m c t p q h _ ?_ ?_ ?_ ?_
  · show win0_4.index t (0 : Fin 4) * 1 + 1 * 0 = _; omega
  · show win0_4.index t (1 : Fin 4) * 128 + 1 * p.val = _; omega
  · show win0_4.index t (2 : Fin 4) * 128 + 1 * q.val = _; omega
  · show win0_4.index t (3 : Fin 4) * 128 + 1 * h.val = _; omega

/-! ## The blocks tile the result -/

/-- An index of the result is in point t's block iff each coordinate is in the block's range on its axis. -/
theorem mem_blk (t : Fin cfg0.N) (i : S8x256x256x128.Idx) :
    i ∈ ((cfg0.win 4).blk t).view.set ↔ ∀ a : Fin 4, win0_4.index t a * S1x128x128x128.size a ≤ (i a).val
      ∧ (i a).val < win0_4.index t a * S1x128x128x128.size a + S1x128x128x128.size a := by
  show i ∈ ((View.whole main_v1).slice (win0_4.rect t)).set ↔ _
  rw [View.set_slice_whole, Rect.mem_set_unit]
  exact Iff.rfl

/-- Every index (bb, r, s, h) of the result is in the block of the point (bb, r / 128, s / 128). -/
theorem cover (i : S8x256x256x128.Idx) :
    ∃ t : Fin cfg0.N, (cfg0.win 4).flush t = true ∧ i ∈ ((cfg0.win 4).blk t).view.set := by
  have hi0 : (i 0).val < 8 := (i 0).isLt
  have hi1 : (i 1).val < 256 := (i 1).isLt
  have hi2 : (i 2).val < 256 := (i 2).isLt
  have hi3 : (i 3).val < 128 := (i 3).isLt
  obtain ⟨t, ht⟩ := block_onto ⟨(i 0).val, by omega⟩ ⟨(i 1).val / 128, by omega⟩ ⟨(i 2).val / 128, by omega⟩
  have q0 : win0_4.index t (0 : Fin 4) = (i 0).val := congrFun ht 0
  have q1 : win0_4.index t (1 : Fin 4) = (i 1).val / 128 := congrFun ht 1
  have q2 : win0_4.index t (2 : Fin 4) = (i 2).val / 128 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 128 ≤ (i 1).val ∧ (i 1).val < win0_4.index t (1 : Fin 4) * 128 + 128; omega
  | ⟨2, _⟩ => show win0_4.index t (2 : Fin 4) * 128 ≤ (i 2).val ∧ (i 2).val < win0_4.index t (2 : Fin 4) * 128 + 128; omega
  | ⟨3, _⟩ => show win0_4.index t (3 : Fin 4) * 128 ≤ (i 3).val ∧ (i 3).val < win0_4.index t (3 : Fin 4) * 128 + 128; omega

/-! ## The result array and the run -/

/-- After the run the result array holds the specification of the argument arrays. -/
theorem final (c : Dev nD) : (dats m 0 c).arrAt 4 cfg0.N = spec m c :=
  (dats m 0 c).arrAt_eq_of_cover 4 (spec m c) (fun t _ => flushed_eq m c t) cover

/-- The run: the result array at the specification of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v1) = EdgeSpec.G (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.EdgeArray

end
-- ==== Proof.LibNary6.lean ====
/-
  A host operation over a LITERAL family of six buffers (a `stablehlo.concatenate` of six operands), read at its
  result buffer with each operand's contents at its own buffer.

  The general result lemma for an operation over a family of buffers `xs` gives the operation's function applied to
  `fun k => F (xs k)`: under that binder the buffer `xs k` is no literal, so no further result lemma applies to the
  operands' contents. For the literal family `![x, a, b, c, d, e]` the family of contents is the six contents, one per
  buffer, written out: `Fin.cons (F x) (Fin.cons (F a) …)`, in which each `F ·` can be rewritten in its turn. The
  library states this for four buffers; the same statement and proof hold for six.
-/
import Idealize.ShloMosaic.Lib.StableHlo.Run

noncomputable section

namespace Idealize.ShloMosaic.StableHlo

variable {nD : Nat} {τ : Topo} {sig : RefSig} {Val : EltTy → Type}
variable {x a b c d e y : Ref sig .tc}

/-- The result of an operation over six literal buffers, each operand's contents at its own buffer. -/
theorem nary6_result
    (f : ((k : Fin 6) → ((![x, a, b, c, d, e] : Fin 6 → Ref sig .tc) k).ty.Contents Val) → y.ty.Contents Val) (hxs hy)
    (F : Valuation τ sig Val) :
    (nary (τ := τ) ![x, a, b, c, d, e] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc d)) (Fin.cons (F (Proc.devRef .tc e)) (fun i => i.elim0))))))) := by
  rw [nary_result]; congr 1; funext k; fin_cases k <;> rfl

/-- The same with the result buffer un-indexed, the form one simplifier pass over a long line of operations uses. -/
theorem nary6_result'
    (f : ((k : Fin 6) → ((![x, a, b, c, d, e] : Fin 6 → Ref sig .tc) k).ty.Contents Val) → y.ty.Contents Val) (hxs hy)
    (F : Valuation τ sig Val) :
    (nary (τ := τ) ![x, a, b, c, d, e] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc d)) (Fin.cons (F (Proc.devRef .tc e)) (fun i => i.elim0))))))) :=
  nary6_result f hxs hy F

end Idealize.ShloMosaic.StableHlo

end
-- ==== Proof.RefStretch.lean ====
/-
  The reference's result, read in three stretches.

  The reference's @main is a line of 97 host operations. Its last operations join six feature tables into one
  (`main_v83`), join that with the second agents' two extra features (`main_v86`), contract with the weights and add the
  bias (`main_v90`). A join takes its operands as a list of shapes paired with arrays, and the one-pass rewriting that
  computes what a buffer holds after a line of operations does not reach inside such a pair. So the line is cut before
  each join — `opsA`, the operations up to the six tables; `opsB`, the first join and the slice and broadcast of the
  extra features; `opsC`, the second join, the product and the bias — and the last two stretches are read from ANY
  contents `W` of the buffers before them: what `main_v90` holds after `opsC` is the product and bias of `W` at
  `main_v83`, `main_v85` and the arguments, and what those hold after `opsB` is the join of `W` at the six tables and the
  broadcast slice of `W` at `main_v11`. What is left inside the joins are buffers' contents after `opsA`, nine of them,
  each computed on its own (`result_congr` names the nine places).
-/
import proofs.«112012_j30537217474895_1_alg».proof.Proof.Gen.ReferenceIdeal
import proofs.«112012_j30537217474895_1_alg».proof.Proof.LibNary6
import Idealize.ShloMosaic.Lib.StableHlo.Run

noncomputable section

namespace Cert.ReferenceIdeal.Stretch

open Cert.ReferenceIdeal Cert.ReferenceIdeal.Gen Idealize.ShloMosaic Idealize.ShloMosaic.TcCoe Idealize.SL.Sem Idealize.ShloMosaic.StableHlo

variable {F : FTy → Type} [FloatOps F]

/-- @main's operations up to the six feature tables `main_v77` … `main_v82`. -/
abbrev opsA : List (HloOp τ sig (Elt F)) :=
  [ nullary main_cst (constant S_ .f32 0x00000000#32),
    unary main_cst main_v0 (broadcastInDim S8x256x7 ![] bcast_S_S8x256x7 : (⟨S_, .f32⟩ : BufTy).Contents (Elt F) → (⟨S8x256x7, .f32⟩ : BufTy).Contents (Elt F)),
    binary main_arg0 main_v0 main_v1 (cmpf .oeq : (⟨S8x256x7, .f32⟩ : BufTy).Contents (Elt F) → (⟨S8x256x7, .f32⟩ : BufTy).Contents (Elt F) → (⟨S8x256x7, .i1⟩ : BufTy).Contents (Elt F)),
    nullary main_c (constantI S_ 1 1#1),
    binary main_v1 main_c main_v2 ((fun x v => Host.reduce IntOp.andi x v reducesTo_S8x256x7_S8x256_d2 h_S_) : (⟨S8x256x7, .i1⟩ : BufTy).Contents (Elt F) → (⟨S_, .i1⟩ : BufTy).Contents (Elt F) → (⟨S8x256, .i1⟩ : BufTy).Contents (Elt F)),
    unary main_v2 main_v3 (noti : (⟨S8x256, .i1⟩ : BufTy).Contents (Elt F) → (⟨S8x256, .i1⟩ : BufTy).Contents (Elt F)),
    unary main_v3 main_v4 (uitofp .f32 : (⟨S8x256, .i1⟩ : BufTy).Contents (Elt F) → (⟨S8x256, .f32⟩ : BufTy).Contents (Elt F)),
    nullary main_cst_0 (constant S_ .f32 0x00000000#32),
    unary main_cst_0 main_v5 (broadcastInDim S8x256x7 ![] bcast_S_S8x256x7 : (⟨S_, .f32⟩ : BufTy).Contents (Elt F) → (⟨S8x256x7, .f32⟩ : BufTy).Contents (Elt F)),
    binary main_arg1 main_v5 main_v6 (cmpf .oeq : (⟨S8x256x7, .f32⟩ : BufTy).Contents (Elt F) → (⟨S8x256x7, .f32⟩ : BufTy).Contents (Elt F) → (⟨S8x256x7, .i1⟩ : BufTy).Contents (Elt F)),
    nullary main_c_1 (constantI S_ 1 1#1),
    binary main_v6 main_c_1 main_v7 ((fun x v => Host.reduce IntOp.andi x v reducesTo_S8x256x7_S8x256_d2 h_S_) : (⟨S8x256x7, .i1⟩ : BufTy).Contents (Elt F) → (⟨S_, .i1⟩ : BufTy).Contents (Elt F) → (⟨S8x256, .i1⟩ : BufTy).Contents (Elt F)),
    unary main_v7 main_v8 (noti : (⟨S8x256, .i1⟩ : BufTy).Contents (Elt F) → (⟨S8x256, .i1⟩ : BufTy).Contents (Elt F)),
    unary main_v8 main_v9 (uitofp .f32 : (⟨S8x256, .i1⟩ : BufTy).Contents (Elt F) → (⟨S8x256, .f32⟩ : BufTy).Contents (Elt F)),
    unary main_arg0 main_v10 (broadcastInDim S8x256x1x7 ![0, 1, 3] bcast_S8x256x7_S8x256x1x7_0_1_3 : (⟨S8x256x7, .f32⟩ : BufTy).Contents (Elt F) → (⟨S8x256x1x7, .f32⟩ : BufTy).Contents (Elt F)),
    unary main_arg1 main_v11 (broadcastInDim S8x1x256x7 ![0, 2, 3] bcast_S8x256x7_S8x1x256x7_0_2_3 : (⟨S8x256x7, .f32⟩ : BufTy).Contents (Elt F) → (⟨S8x1x256x7, .f32⟩ : BufTy).Contents (Elt F)),
    unary main_v11 main_v12 ((extractStridedSlice S8x1x256x1 ![0, 0, 0, 0] · slices_S8x1x256x7_S8x1x256x1_0_0_0_0) : (⟨S8x1x256x7, .f32⟩ : BufTy).Contents (Elt F) → (⟨S8x1x256x1, .f32⟩ : BufTy).Contents (Elt F)),
    reshape main_v12 main_v13 rfl shapeCasts_S8x1x256x1_S8x1x256,
    unary main_v10 main_v14 ((extractStridedSlice S8x256x1x1 ![0, 0, 0, 0] · slices_S8x256x1x7_S8x256x1x1_0_0_0_0) : (⟨S8x256x1x7, .f32⟩ : BufTy).Contents (Elt F) → (⟨S8x256x1x1, .f32⟩ : BufTy).Contents (Elt F)),
    reshape main_v14 main_v15 rfl shapeCasts_S8x256x1x1_S8x256x1,
    unary main_v13 main_v16 (broadcastInDim S8x256x256 ![0, 1, 2] bcast_S8x1x256_S8x256x256_0_1_2 : (⟨S8x1x256, .f32⟩ : BufTy).Contents (Elt F) → (⟨S8x256x256, .f32⟩ : BufTy).Contents (Elt F)),
    unary main_v15 main_v17 (broadcastInDim S8x256x256 ![0, 1, 2] bcast_S8x256x1_S8x256x256_0_1_2 : (⟨S8x256x1, .f32⟩ : BufTy).Contents (Elt F) → (⟨S8x256x256, .f32⟩ : BufTy).Contents (Elt F)),
    binary main_v16 main_v17 main_v18 (subf : (⟨S8x256x256, .f32⟩ : BufTy).Contents (Elt F) → (⟨S8x256x256, .f32⟩ : BufTy).Contents (Elt F) → (⟨S8x256x256, .f32⟩ : BufTy).Contents (Elt F)),
    unary main_v11 main_v19 ((extractStridedSlice S8x1x256x1 ![0, 0, 0, 1] · slices_S8x1x256x7_S8x1x256x1_0_0_0_1) : (⟨S8x1x256x7, .f32⟩ : BufTy).Contents (Elt F) → (⟨S8x1x256x1, .f32⟩ : BufTy).Contents (Elt F)),
    reshape main_v19 main_v20 rfl shapeCasts_S8x1x256x1_S8x1x256,
    unary main_v10 main_v21 ((extractStridedSlice S8x256x1x1 ![0, 0, 0, 1] · slices_S8x256x1x7_S8x256x1x1_0_0_0_1) : (⟨S8x256x1x7, .f32⟩ : BufTy).Contents (Elt F) → (⟨S8x256x1x1, .f32⟩ : BufTy).Contents (Elt F)),
    reshape main_v21 main_v22 rfl shapeCasts_S8x256x1x1_S8x256x1,
    unary main_v20 main_v23 (broadcastInDim S8x256x256 ![0, 1, 2] bcast_S8x1x256_S8x256x256_0_1_2 : (⟨S8x1x256, .f32⟩ : BufTy).Contents (Elt F) → (⟨S8x256x256, .f32⟩ : BufTy).Contents (Elt F)),
    unary main_v22 main_v24 (broadcastInDim S8x256x256 ![0, 1, 2] bcast_S8x256x1_S8x256x256_0_1_2 : (⟨S8x256x1, .f32⟩ : BufTy).Contents (Elt F) → (⟨S8x256x256, .f32⟩ : BufTy).Contents (Elt F)),
    binary main_v23 main_v24 main_v25 (subf : (⟨S8x256x256, .f32⟩ : BufTy).Contents (Elt F) → (⟨S8x256x256, .f32⟩ : BufTy).Contents (Elt F) → (⟨S8x256x256, .f32⟩ : BufTy).Contents (Elt F)),
    unary main_v10 main_v26 ((extractStridedSlice S8x256x1x1 ![0, 0, 0, 3] · slices_S8x256x1x7_S8x256x1x1_0_0_0_3) : (⟨S8x256x1x7, .f32⟩ : BufTy).Contents (Elt F) → (⟨S8x256x1x1, .f32⟩ : BufTy).Contents (Elt F)),
    reshape main_v26 main_v27 rfl shapeCasts_S8x256x1x1_S8x256x1,
    unary main_v10 main_v28 ((extractStridedSlice S8x256x1x1 ![0, 0, 0, 4] · slices_S8x256x1x7_S8x256x1x1_0_0_0_4) : (⟨S8x256x1x7, .f32⟩ : BufTy).Contents (Elt F) → (⟨S8x256x1x1, .f32⟩ : BufTy).Contents (Elt F)),
    reshape main_v28 main_v29 rfl shapeCasts_S8x256x1x1_S8x256x1,
    unary main_v11 main_v30 ((extractStridedSlice S8x1x256x1 ![0, 0, 0, 3] · slices_S8x1x256x7_S8x1x256x1_0_0_0_3) : (⟨S8x1x256x7, .f32⟩ : BufTy).Contents (Elt F) → (⟨S8x1x256x1, .f32⟩ : BufTy).Contents (Elt F)),
    reshape main_v30 main_v31 rfl shapeCasts_S8x1x256x1_S8x1x256,
    unary main_v11 main_v32 ((extractStridedSlice S8x1x256x1 ![0, 0, 0, 4] · slices_S8x1x256x7_S8x1x256x1_0_0_0_4) : (⟨S8x1x256x7, .f32⟩ : BufTy).Contents (Elt F) → (⟨S8x1x256x1, .f32⟩ : BufTy).Contents (Elt F)),
    reshape main_v32 main_v33 rfl shapeCasts_S8x1x256x1_S8x1x256,
    unary main_v29 main_v34 (broadcastInDim S8x256x256 ![0, 1, 2] bcast_S8x256x1_S8x256x256_0_1_2 : (⟨S8x256x1, .f32⟩ : BufTy).Contents (Elt F) → (⟨S8x256x256, .f32⟩ : BufTy).Contents (Elt F)),
    binary main_v34 main_v18 main_v35 (mulf : (⟨S8x256x256, .f32⟩ : BufTy).Contents (Elt F) → (⟨S8x256x256, .f32⟩ : BufTy).Contents (Elt F) → (⟨S8x256x256, .f32⟩ : BufTy).Contents (Elt F)),
    unary main_v27 main_v36 (broadcastInDim S8x256x256 ![0, 1, 2] bcast_S8x256x1_S8x256x256_0_1_2 : (⟨S8x256x1, .f32⟩ : BufTy).Contents (Elt F) → (⟨S8x256x256, .f32⟩ : BufTy).Contents (Elt F)),
    binary main_v36 main_v25 main_v37 (mulf : (⟨S8x256x256, .f32⟩ : BufTy).Contents (Elt F) → (⟨S8x256x256, .f32⟩ : BufTy).Contents (Elt F) → (⟨S8x256x256, .f32⟩ : BufTy).Contents (Elt F)),
    binary main_v35 main_v37 main_v38 (addf : (⟨S8x256x256, .f32⟩ : BufTy).Contents (Elt F) → (⟨S8x256x256, .f32⟩ : BufTy).Contents (Elt F) → (⟨S8x256x256, .f32⟩ : BufTy).Contents (Elt F)),
    unary main_v27 main_v39 (Host.negf : (⟨S8x256x1, .f32⟩ : BufTy).Contents (Elt F) → (⟨S8x256x1, .f32⟩ : BufTy).Contents (Elt F)),
    unary main_v39 main_v40 (broadcastInDim S8x256x256 ![0, 1, 2] bcast_S8x256x1_S8x256x256_0_1_2 : (⟨S8x256x1, .f32⟩ : BufTy).Contents (Elt F) → (⟨S8x256x256, .f32⟩ : BufTy).Contents (Elt F)),
    binary main_v40 main_v18 main_v41 (mulf : (⟨S8x256x256, .f32⟩ : BufTy).Contents (Elt F) → (⟨S8x256x256, .f32⟩ : BufTy).Contents (Elt F) → (⟨S8x256x256, .f32⟩ : BufTy).Contents (Elt F)),
    unary main_v29 main_v42 (broadcastInDim S8x256x256 ![0, 1, 2] bcast_S8x256x1_S8x256x256_0_1_2 : (⟨S8x256x1, .f32⟩ : BufTy).Contents (Elt F) → (⟨S8x256x256, .f32⟩ : BufTy).Contents (Elt F)),
    binary main_v42 main_v25 main_v43 (mulf : (⟨S8x256x256, .f32⟩ : BufTy).Contents (Elt F) → (⟨S8x256x256, .f32⟩ : BufTy).Contents (Elt F) → (⟨S8x256x256, .f32⟩ : BufTy).Contents (Elt F)),
    binary main_v41 main_v43 main_v44 (addf : (⟨S8x256x256, .f32⟩ : BufTy).Contents (Elt F) → (⟨S8x256x256, .f32⟩ : BufTy).Contents (Elt F) → (⟨S8x256x256, .f32⟩ : BufTy).Contents (Elt F)),
    unary main_v31 main_v45 (broadcastInDim S8x256x256 ![0, 1, 2] bcast_S8x1x256_S8x256x256_0_1_2 : (⟨S8x1x256, .f32⟩ : BufTy).Contents (Elt F) → (⟨S8x256x256, .f32⟩ : BufTy).Contents (Elt F)),
    unary main_v29 main_v46 (broadcastInDim S8x256x256 ![0, 1, 2] bcast_S8x256x1_S8x256x256_0_1_2 : (⟨S8x256x1, .f32⟩ : BufTy).Contents (Elt F) → (⟨S8x256x256, .f32⟩ : BufTy).Contents (Elt F)),
    binary main_v45 main_v46 main_v47 (mulf : (⟨S8x256x256, .f32⟩ : BufTy).Contents (Elt F) → (⟨S8x256x256, .f32⟩ : BufTy).Contents (Elt F) → (⟨S8x256x256, .f32⟩ : BufTy).Contents (Elt F)),
    unary main_v33 main_v48 (broadcastInDim S8x256x256 ![0, 1, 2] bcast_S8x1x256_S8x256x256_0_1_2 : (⟨S8x1x256, .f32⟩ : BufTy).Contents (Elt F) → (⟨S8x256x256, .f32⟩ : BufTy).Contents (Elt F)),
    unary main_v27 main_v49 (broadcastInDim S8x256x256 ![0, 1, 2] bcast_S8x256x1_S8x256x256_0_1_2 : (⟨S8x256x1, .f32⟩ : BufTy).Contents (Elt F) → (⟨S8x256x256, .f32⟩ : BufTy).Contents (Elt F)),
    binary main_v48 main_v49 main_v50 (mulf : (⟨S8x256x256, .f32⟩ : BufTy).Contents (Elt F) → (⟨S8x256x256, .f32⟩ : BufTy).Contents (Elt F) → (⟨S8x256x256, .f32⟩ : BufTy).Contents (Elt F)),
    binary main_v47 main_v50 main_v51 (subf : (⟨S8x256x256, .f32⟩ : BufTy).Contents (Elt F) → (⟨S8x256x256, .f32⟩ : BufTy).Contents (Elt F) → (⟨S8x256x256, .f32⟩ : BufTy).Contents (Elt F)),
    unary main_v33 main_v52 (broadcastInDim S8x256x256 ![0, 1, 2] bcast_S8x1x256_S8x256x256_0_1_2 : (⟨S8x1x256, .f32⟩ : BufTy).Contents (Elt F) → (⟨S8x256x256, .f32⟩ : BufTy).Contents (Elt F)),
    unary main_v29 main_v53 (broadcastInDim S8x256x256 ![0, 1, 2] bcast_S8x256x1_S8x256x256_0_1_2 : (⟨S8x256x1, .f32⟩ : BufTy).Contents (Elt F) → (⟨S8x256x256, .f32⟩ : BufTy).Contents (Elt F)),
    binary main_v52 main_v53 main_v54 (mulf : (⟨S8x256x256, .f32⟩ : BufTy).Contents (Elt F) → (⟨S8x256x256, .f32⟩ : BufTy).Contents (Elt F) → (⟨S8x256x256, .f32⟩ : BufTy).Contents (Elt F)),
    unary main_v31 main_v55 (broadcastInDim S8x256x256 ![0, 1, 2] bcast_S8x1x256_S8x256x256_0_1_2 : (⟨S8x1x256, .f32⟩ : BufTy).Contents (Elt F) → (⟨S8x256x256, .f32⟩ : BufTy).Contents (Elt F)),
    unary main_v27 main_v56 (broadcastInDim S8x256x256 ![0, 1, 2] bcast_S8x256x1_S8x256x256_0_1_2 : (⟨S8x256x1, .f32⟩ : BufTy).Contents (Elt F) → (⟨S8x256x256, .f32⟩ : BufTy).Contents (Elt F)),
    binary main_v55 main_v56 main_v57 (mulf : (⟨S8x256x256, .f32⟩ : BufTy).Contents (Elt F) → (⟨S8x256x256, .f32⟩ : BufTy).Contents (Elt F) → (⟨S8x256x256, .f32⟩ : BufTy).Contents (Elt F)),
    binary main_v54 main_v57 main_v58 (addf : (⟨S8x256x256, .f32⟩ : BufTy).Contents (Elt F) → (⟨S8x256x256, .f32⟩ : BufTy).Contents (Elt F) → (⟨S8x256x256, .f32⟩ : BufTy).Contents (Elt F)),
    unary main_v4 main_v59 (broadcastInDim S8x256x1 ![0, 1] bcast_S8x256_S8x256x1_0_1 : (⟨S8x256, .f32⟩ : BufTy).Contents (Elt F) → (⟨S8x256x1, .f32⟩ : BufTy).Contents (Elt F)),
    unary main_v9 main_v60 (broadcastInDim S8x1x256 ![0, 2] bcast_S8x256_S8x1x256_0_2 : (⟨S8x256, .f32⟩ : BufTy).Contents (Elt F) → (⟨S8x1x256, .f32⟩ : BufTy).Contents (Elt F)),
    unary main_v59 main_v61 (broadcastInDim S8x256x256 ![0, 1, 2] bcast_S8x256x1_S8x256x256_0_1_2 : (⟨S8x256x1, .f32⟩ : BufTy).Contents (Elt F) → (⟨S8x256x256, .f32⟩ : BufTy).Contents (Elt F)),
    unary main_v60 main_v62 (broadcastInDim S8x256x256 ![0, 1, 2] bcast_S8x1x256_S8x256x256_0_1_2 : (⟨S8x1x256, .f32⟩ : BufTy).Contents (Elt F) → (⟨S8x256x256, .f32⟩ : BufTy).Contents (Elt F)),
    binary main_v61 main_v62 main_v63 (mulf : (⟨S8x256x256, .f32⟩ : BufTy).Contents (Elt F) → (⟨S8x256x256, .f32⟩ : BufTy).Contents (Elt F) → (⟨S8x256x256, .f32⟩ : BufTy).Contents (Elt F)),
    binary main_v38 main_v63 main_v64 (mulf : (⟨S8x256x256, .f32⟩ : BufTy).Contents (Elt F) → (⟨S8x256x256, .f32⟩ : BufTy).Contents (Elt F) → (⟨S8x256x256, .f32⟩ : BufTy).Contents (Elt F)),
    binary main_v44 main_v63 main_v65 (mulf : (⟨S8x256x256, .f32⟩ : BufTy).Contents (Elt F) → (⟨S8x256x256, .f32⟩ : BufTy).Contents (Elt F) → (⟨S8x256x256, .f32⟩ : BufTy).Contents (Elt F)),
    binary main_v51 main_v63 main_v66 (mulf : (⟨S8x256x256, .f32⟩ : BufTy).Contents (Elt F) → (⟨S8x256x256, .f32⟩ : BufTy).Contents (Elt F) → (⟨S8x256x256, .f32⟩ : BufTy).Contents (Elt F)),
    binary main_v58 main_v63 main_v67 (mulf : (⟨S8x256x256, .f32⟩ : BufTy).Contents (Elt F) → (⟨S8x256x256, .f32⟩ : BufTy).Contents (Elt F) → (⟨S8x256x256, .f32⟩ : BufTy).Contents (Elt F)),
    unary main_v11 main_v68 ((extractStridedSlice S8x1x256x1 ![0, 0, 0, 2] · slices_S8x1x256x7_S8x1x256x1_0_0_0_2) : (⟨S8x1x256x7, .f32⟩ : BufTy).Contents (Elt F) → (⟨S8x1x256x1, .f32⟩ : BufTy).Contents (Elt F)),
    reshape main_v68 main_v69 rfl shapeCasts_S8x1x256x1_S8x1x256,
    unary main_v69 main_v70 (broadcastInDim S8x256x256 ![0, 1, 2] bcast_S8x1x256_S8x256x256_0_1_2 : (⟨S8x1x256, .f32⟩ : BufTy).Contents (Elt F) → (⟨S8x256x256, .f32⟩ : BufTy).Contents (Elt F)),
    nullary main_cst_2 (constant S_ .f32 0x41200000#32),
    unary main_cst_2 main_v71 (broadcastInDim S8x256x256 ![] bcast_S_S8x256x256 : (⟨S_, .f32⟩ : BufTy).Contents (Elt F) → (⟨S8x256x256, .f32⟩ : BufTy).Contents (Elt F)),
    binary main_v64 main_v71 main_v72 (Host.divf : (⟨S8x256x256, .f32⟩ : BufTy).Contents (Elt F) → (⟨S8x256x256, .f32⟩ : BufTy).Contents (Elt F) → (⟨S8x256x256, .f32⟩ : BufTy).Contents (Elt F)),
    nullary main_cst_3 (constant S_ .f32 0x41200000#32),
    unary main_cst_3 main_v73 (broadcastInDim S8x256x256 ![] bcast_S_S8x256x256 : (⟨S_, .f32⟩ : BufTy).Contents (Elt F) → (⟨S8x256x256, .f32⟩ : BufTy).Contents (Elt F)),
    binary main_v65 main_v73 main_v74 (Host.divf : (⟨S8x256x256, .f32⟩ : BufTy).Contents (Elt F) → (⟨S8x256x256, .f32⟩ : BufTy).Contents (Elt F) → (⟨S8x256x256, .f32⟩ : BufTy).Contents (Elt F)),
    binary main_v70 main_v66 main_v75 (mulf : (⟨S8x256x256, .f32⟩ : BufTy).Contents (Elt F) → (⟨S8x256x256, .f32⟩ : BufTy).Contents (Elt F) → (⟨S8x256x256, .f32⟩ : BufTy).Contents (Elt F)),
    binary main_v70 main_v67 main_v76 (mulf : (⟨S8x256x256, .f32⟩ : BufTy).Contents (Elt F) → (⟨S8x256x256, .f32⟩ : BufTy).Contents (Elt F) → (⟨S8x256x256, .f32⟩ : BufTy).Contents (Elt F)),
    unary main_v72 main_v77 (broadcastInDim S8x256x256x1 ![0, 1, 2] bcast_S8x256x256_S8x256x256x1_0_1_2 : (⟨S8x256x256, .f32⟩ : BufTy).Contents (Elt F) → (⟨S8x256x256x1, .f32⟩ : BufTy).Contents (Elt F)),
    unary main_v74 main_v78 (broadcastInDim S8x256x256x1 ![0, 1, 2] bcast_S8x256x256_S8x256x256x1_0_1_2 : (⟨S8x256x256, .f32⟩ : BufTy).Contents (Elt F) → (⟨S8x256x256x1, .f32⟩ : BufTy).Contents (Elt F)),
    unary main_v66 main_v79 (broadcastInDim S8x256x256x1 ![0, 1, 2] bcast_S8x256x256_S8x256x256x1_0_1_2 : (⟨S8x256x256, .f32⟩ : BufTy).Contents (Elt F) → (⟨S8x256x256x1, .f32⟩ : BufTy).Contents (Elt F)),
    unary main_v67 main_v80 (broadcastInDim S8x256x256x1 ![0, 1, 2] bcast_S8x256x256_S8x256x256x1_0_1_2 : (⟨S8x256x256, .f32⟩ : BufTy).Contents (Elt F) → (⟨S8x256x256x1, .f32⟩ : BufTy).Contents (Elt F)),
    unary main_v75 main_v81 (broadcastInDim S8x256x256x1 ![0, 1, 2] bcast_S8x256x256_S8x256x256x1_0_1_2 : (⟨S8x256x256, .f32⟩ : BufTy).Contents (Elt F) → (⟨S8x256x256x1, .f32⟩ : BufTy).Contents (Elt F)),
    unary main_v76 main_v82 (broadcastInDim S8x256x256x1 ![0, 1, 2] bcast_S8x256x256_S8x256x256x1_0_1_2 : (⟨S8x256x256, .f32⟩ : BufTy).Contents (Elt F) → (⟨S8x256x256x1, .f32⟩ : BufTy).Contents (Elt F)) ]

/-- The join of the six tables, and the second agents' extra features sliced and broadcast. -/
abbrev opsB : List (HloOp τ sig (Elt F)) :=
  [ nary ![main_v77, main_v78, main_v79, main_v80, main_v81, main_v82] main_v83 (fun u => concatenate S8x256x256x6 3 [⟨S8x256x256x1, u 0⟩, ⟨S8x256x256x1, u 1⟩, ⟨S8x256x256x1, u 2⟩, ⟨S8x256x256x1, u 3⟩, ⟨S8x256x256x1, u 4⟩, ⟨S8x256x256x1, u 5⟩] concatenates_S8x256x256x1_S8x256x256x1_S8x256x256x1_S8x256x256x1_S8x256x256x1_S8x256x256x1_S8x256x256x6_d3),
    unary main_v11 main_v84 ((extractStridedSlice S8x1x256x2 ![0, 0, 0, 5] · slices_S8x1x256x7_S8x1x256x2_0_0_0_5) : (⟨S8x1x256x7, .f32⟩ : BufTy).Contents (Elt F) → (⟨S8x1x256x2, .f32⟩ : BufTy).Contents (Elt F)),
    unary main_v84 main_v85 (broadcastInDim S8x256x256x2 ![0, 1, 2, 3] bcast_S8x1x256x2_S8x256x256x2_0_1_2_3 : (⟨S8x1x256x2, .f32⟩ : BufTy).Contents (Elt F) → (⟨S8x256x256x2, .f32⟩ : BufTy).Contents (Elt F)) ]

/-- The join with the extra features, the product with the weights, the bias. -/
abbrev opsC : List (HloOp τ sig (Elt F)) :=
  [ binary main_v83 main_v85 main_v86 ((fun a b => concatenate S8x256x256x8 3 [⟨S8x256x256x6, a⟩, ⟨S8x256x256x2, b⟩] concatenates_S8x256x256x6_S8x256x256x2_S8x256x256x8_d3) : (⟨S8x256x256x6, .f32⟩ : BufTy).Contents (Elt F) → (⟨S8x256x256x2, .f32⟩ : BufTy).Contents (Elt F) → (⟨S8x256x256x8, .f32⟩ : BufTy).Contents (Elt F)),
    binary main_v86 main_arg2 main_v87 ((fun l r => Host.dotGeneral dot_S8x256x256x8_S128x8_S8x256x256x128_3_1_012_0_n_n none l r) : (⟨S8x256x256x8, .f32⟩ : BufTy).Contents (Elt F) → (⟨S128x8, .f32⟩ : BufTy).Contents (Elt F) → (⟨S8x256x256x128, .f32⟩ : BufTy).Contents (Elt F)),
    unary main_arg3 main_v88 (broadcastInDim S1x1x1x128 ![3] bcast_S128_S1x1x1x128_3 : (⟨S128, .f32⟩ : BufTy).Contents (Elt F) → (⟨S1x1x1x128, .f32⟩ : BufTy).Contents (Elt F)),
    unary main_v88 main_v89 (broadcastInDim S8x256x256x128 ![0, 1, 2, 3] bcast_S1x1x1x128_S8x256x256x128_0_1_2_3 : (⟨S1x1x1x128, .f32⟩ : BufTy).Contents (Elt F) → (⟨S8x256x256x128, .f32⟩ : BufTy).Contents (Elt F)),
    binary main_v87 main_v89 main_v90 (addf : (⟨S8x256x256x128, .f32⟩ : BufTy).Contents (Elt F) → (⟨S8x256x256x128, .f32⟩ : BufTy).Contents (Elt F) → (⟨S8x256x256x128, .f32⟩ : BufTy).Contents (Elt F)) ]

/-- What the buffers hold after two lines run one after the other. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The last stretch from any contents `W`. -/
theorem afterC_main_v90 (W : Valuation τ sig (Elt F)) :
    after opsC W (Proc.devRef .tc main_v90)
      = addf (Host.dotGeneral dot_S8x256x256x8_S128x8_S8x256x256x128_3_1_012_0_n_n none
          (concatenate S8x256x256x8 3 [⟨S8x256x256x6, W (Proc.devRef .tc main_v83)⟩, ⟨S8x256x256x2, W (Proc.devRef .tc main_v85)⟩] concatenates_S8x256x256x6_S8x256x256x2_S8x256x256x8_d3)
          (W (Proc.devRef .tc main_arg2)))
        (broadcastInDim S8x256x256x128 ![0, 1, 2, 3] bcast_S1x1x1x128_S8x256x256x128_0_1_2_3
          (broadcastInDim S1x1x1x128 ![3] bcast_S128_S1x1x1x128_3 (W (Proc.devRef .tc main_arg3)))) := by
  after_results_simp <;> rfl

/-- The middle stretch from any contents `W`: the six tables joined, -/
theorem afterB_main_v83 (W : Valuation τ sig (Elt F)) :
    after opsB W (Proc.devRef .tc main_v83)
      = concatenate S8x256x256x6 3 [⟨S8x256x256x1, W (Proc.devRef .tc main_v77)⟩, ⟨S8x256x256x1, W (Proc.devRef .tc main_v78)⟩, ⟨S8x256x256x1, W (Proc.devRef .tc main_v79)⟩, ⟨S8x256x256x1, W (Proc.devRef .tc main_v80)⟩, ⟨S8x256x256x1, W (Proc.devRef .tc main_v81)⟩, ⟨S8x256x256x1, W (Proc.devRef .tc main_v82)⟩]
          concatenates_S8x256x256x1_S8x256x256x1_S8x256x256x1_S8x256x256x1_S8x256x256x1_S8x256x256x1_S8x256x256x6_d3 := by
  simp (disch := decide) only [after_cons, after_nil, nullary_result', unary_result', binary_result', ternary_result', quaternary_result', reshape_result', nary6_result', nary4_result', nary_result', unaryIndexed_result', binaryIndexed_result', nullary_result_ne', unary_result_ne', binary_result_ne', ternary_result_ne', quaternary_result_ne', reshape_result_ne', nary_result_ne', unaryIndexed_result_ne', binaryIndexed_result_ne'] <;> rfl
/-- the extra features sliced and broadcast, -/
theorem afterB_main_v85 (W : Valuation τ sig (Elt F)) :
    after opsB W (Proc.devRef .tc main_v85)
      = broadcastInDim S8x256x256x2 ![0, 1, 2, 3] bcast_S8x1x256x2_S8x256x256x2_0_1_2_3
          (extractStridedSlice S8x1x256x2 ![0, 0, 0, 5] (W (Proc.devRef .tc main_v11)) slices_S8x1x256x7_S8x1x256x2_0_0_0_5) := by
  after_results_simp <;> rfl
/-- the weights and the bias as they were. -/
theorem afterB_main_arg2 (W : Valuation τ sig (Elt F)) : after opsB W (Proc.devRef .tc main_arg2) = W (Proc.devRef .tc main_arg2) := by
  after_results_simp <;> rfl
theorem afterB_main_arg3 (W : Valuation τ sig (Elt F)) : after opsB W (Proc.devRef .tc main_arg3) = W (Proc.devRef .tc main_arg3) := by
  after_results_simp <;> rfl

/-- The result from its nine operands: equal operands, equal results. -/
theorem result_congr {a0 a0' a1 a1' a2 a2' a3 a3' a4 a4' a5 a5' : (⟨S8x256x256x1, .f32⟩ : BufTy).Contents (Elt F)}
    {b b' : (⟨S8x1x256x7, .f32⟩ : BufTy).Contents (Elt F)} {w w' : (⟨S128x8, .f32⟩ : BufTy).Contents (Elt F)}
    {β β' : (⟨S128, .f32⟩ : BufTy).Contents (Elt F)}
    (h0 : a0 = a0') (h1 : a1 = a1') (h2 : a2 = a2') (h3 : a3 = a3') (h4 : a4 = a4') (h5 : a5 = a5') (hb : b = b') (hw : w = w') (hβ : β = β') :
    addf (Host.dotGeneral dot_S8x256x256x8_S128x8_S8x256x256x128_3_1_012_0_n_n none
          (concatenate S8x256x256x8 3 [⟨S8x256x256x6, concatenate S8x256x256x6 3 [⟨S8x256x256x1, a0⟩, ⟨S8x256x256x1, a1⟩, ⟨S8x256x256x1, a2⟩, ⟨S8x256x256x1, a3⟩, ⟨S8x256x256x1, a4⟩, ⟨S8x256x256x1, a5⟩] concatenates_S8x256x256x1_S8x256x256x1_S8x256x256x1_S8x256x256x1_S8x256x256x1_S8x256x256x1_S8x256x256x6_d3⟩,
            ⟨S8x256x256x2, broadcastInDim S8x256x256x2 ![0, 1, 2, 3] bcast_S8x1x256x2_S8x256x256x2_0_1_2_3 (extractStridedSlice S8x1x256x2 ![0, 0, 0, 5] b slices_S8x1x256x7_S8x1x256x2_0_0_0_5)⟩] concatenates_S8x256x256x6_S8x256x256x2_S8x256x256x8_d3)
          w)
        (broadcastInDim S8x256x256x128 ![0, 1, 2, 3] bcast_S1x1x1x128_S8x256x256x128_0_1_2_3 (broadcastInDim S1x1x1x128 ![3] bcast_S128_S1x1x1x128_3 β))
    = addf (Host.dotGeneral dot_S8x256x256x8_S128x8_S8x256x256x128_3_1_012_0_n_n none
          (concatenate S8x256x256x8 3 [⟨S8x256x256x6, concatenate S8x256x256x6 3 [⟨S8x256x256x1, a0'⟩, ⟨S8x256x256x1, a1'⟩, ⟨S8x256x256x1, a2'⟩, ⟨S8x256x256x1, a3'⟩, ⟨S8x256x256x1, a4'⟩, ⟨S8x256x256x1, a5'⟩] concatenates_S8x256x256x1_S8x256x256x1_S8x256x256x1_S8x256x256x1_S8x256x256x1_S8x256x256x1_S8x256x256x6_d3⟩,
            ⟨S8x256x256x2, broadcastInDim S8x256x256x2 ![0, 1, 2, 3] bcast_S8x1x256x2_S8x256x256x2_0_1_2_3 (extractStridedSlice S8x1x256x2 ![0, 0, 0, 5] b' slices_S8x1x256x7_S8x1x256x2_0_0_0_5)⟩] concatenates_S8x256x256x6_S8x256x256x2_S8x256x256x8_d3)
          w')
        (broadcastInDim S8x256x256x128 ![0, 1, 2, 3] bcast_S1x1x1x128_S8x256x256x128_0_1_2_3 (broadcastInDim S1x1x1x128 ![3] bcast_S128_S1x1x1x128_3 β')) := by
  subst h0 h1 h2 h3 h4 h5 hb hw hβ; rfl

end Cert.ReferenceIdeal.Stretch

end
-- ==== Proof.RefValue.lean ====
/-
  The reference's result array is the specification array.

  The reference computes, for every batch bb, first agent m and second agent n, the two validity flags (an agent is valid
  unless all seven of its features are zero), the displacement of n from m rotated into m's frame, the sine and cosine of the
  relative heading, the mask (the product of the two flags), the six masked features (the first two divided by ten, the last
  two multiplied by n's speed), joins them with n's two extra features into a row of eight, multiplies the row by the weight
  matrix and adds the bias. Read at the index (bb, m, n, h) every stage is the corresponding term of the specification.
-/
import proofs.«112012_j30537217474895_1_alg».proof.Proof.RefRead
import proofs.«112012_j30537217474895_1_alg».proof.Proof.EdgeSpec
import Idealize.ShloMosaic.Lib.ReduceAll
import Idealize.ShloMosaic.Lib.ValueIdx
import Idealize.ShloMosaic.Lib.Pipeline.Value
import Idealize.ShloMosaic.PureOps.Reduce
import Idealize.ShloMosaic.PureOps.Ideal.Laws

noncomputable section

open scoped BigOperators

namespace Cert.ReferenceIdeal.EdgeRef

open Cert.ReferenceIdeal Cert.ReferenceIdeal.ReadP Idealize.ShloMosaic Idealize.ShloMosaic.ValueIdx

/-- Row m of batch bb of an agent array: the agent's seven features. -/
abbrev agent (x : (⟨S8x256x7, .f32⟩ : BufTy).Contents (Elt Ideal)) (bb : Fin 8) (m : Fin 256) : Fin 7 → EReal :=
  fun d => x (ix3 bb m d)

variable (x0 x1 : (⟨S8x256x7, .f32⟩ : BufTy).Contents (Elt Ideal))
variable (x2 : (⟨S128x8, .f32⟩ : BufTy).Contents (Elt Ideal)) (x3 : (⟨S128, .f32⟩ : BufTy).Contents (Elt Ideal))
variable (bb : Fin 8) (m n : Fin 256)

/-! ## The validity flags -/

/-- A conjunction of one-bit words over a finite set, started at 1, is 1 iff every word is 1. -/
theorem fold_and_eq_one_iff {ι : Type} (s : Finset ι) (f : ι → BitVec 1) :
    s.fold IntOp.andi 1#1 f = 1#1 ↔ ∀ d ∈ s, f d = 1#1 :=
  (Finset.fold_op_rel_iff_and (r := fun (_ y : BitVec 1) => y = 1#1) (fun {_ _ _} => IntOp.andi_eq_one) (c := 1#1)).trans
    ⟨fun h => h.2, fun h => ⟨rfl, h⟩⟩

/-- The comparison of an entry with zero is the bit 1 iff the entry is zero. -/
theorem cmp_zero_eq_one_iff (a : EReal) : Ideal.cmp .oeq a (Ideal.ofBits .f32 0x00000000#32) = 1#1 ↔ a = 0 := by
  rw [Ideal.ofBits_zero_f32]
  show BitVec.ofBool (decide (a = 0)) = 1#1 ↔ a = 0
  by_cases h : a = 0 <;> simp [h]

/-- The flag from the all-zero bit: the complement of the bit, read as a number. -/
theorem flag_of_all_zero_bit (v : BitVec 1) (a : Fin 7 → EReal) (h : v = 1#1 ↔ ∀ d, a d = 0) :
    (FloatOps.uitofp (F := Ideal) .f32 (~~~v) : EReal) = EdgeSpec.flag a := by
  unfold EdgeSpec.flag
  by_cases hz : ∀ d, a d = 0
  · rw [if_pos hz, h.mpr hz]
    show (((~~~(1#1 : BitVec 1)).toNat : ℝ) : EReal) = 0
    rw [show (~~~(1#1 : BitVec 1)).toNat = 0 from by decide]; simp
  · rw [if_neg hz, eq_zero_of_ne_one (fun e => hz (h.mp e))]
    show (((~~~(0#1 : BitVec 1)).toNat : ℝ) : EReal) = 1
    rw [show (~~~(0#1 : BitVec 1)).toNat = 1 from by decide]; simp

/-- The first agents' comparison bit at feature d of row m of batch bb is 1 iff that feature is zero. -/
theorem first_bit_at (h : S8x256x7.Reduces [2] S8x256) (d : Fin (S8x256x7.size 2)) :
    val_main_v1 (F := Ideal) x0 (h.lift (ix2 bb m) d) = 1#1 ↔ agent x0 bb m d = 0 := by
  have e : h.lift (ix2 bb m) d = ix3 bb m d := by
    funext c; apply Fin.ext
    match c with
    | ⟨0, _⟩ => rfl
    | ⟨1, _⟩ => rfl
    | ⟨2, _⟩ => rfl
  have e' : x0 (h.lift (ix2 bb m) d) = x0 (ix3 bb m d) := congrArg x0 e
  rw [val_main_v1_apply, val_main_v0_apply, val_main_cst_apply, e']
  exact cmp_zero_eq_one_iff _

/-- The first agents' all-zero bit at (bb, m). -/
theorem first_all_zero : val_main_v2 (F := Ideal) x0 (ix2 bb m) = 1#1 ↔ ∀ d, agent x0 bb m d = 0 := by
  have h : S8x256x7.Reduces [2] S8x256 := by decide
  unfold val_main_v2
  rw [Host.reduce_eq_fold_single IntOp.andi _ _ _ h, val_main_c_apply, fold_and_eq_one_iff]
  exact ⟨fun H d => (first_bit_at x0 bb m h d).mp (H d (Finset.mem_univ _)),
    fun H d _ => (first_bit_at x0 bb m h d).mpr (H d)⟩

/-- The second agents' comparison bit at feature d of row n of batch bb is 1 iff that feature is zero. -/
theorem second_bit_at (h : S8x256x7.Reduces [2] S8x256) (d : Fin (S8x256x7.size 2)) :
    val_main_v6 (F := Ideal) x1 (h.lift (ix2 bb n) d) = 1#1 ↔ agent x1 bb n d = 0 := by
  have e : h.lift (ix2 bb n) d = ix3 bb n d := by
    funext c; apply Fin.ext
    match c with
    | ⟨0, _⟩ => rfl
    | ⟨1, _⟩ => rfl
    | ⟨2, _⟩ => rfl
  have e' : x1 (h.lift (ix2 bb n) d) = x1 (ix3 bb n d) := congrArg x1 e
  rw [val_main_v6_apply, val_main_v5_apply, val_main_cst_0_apply, e']
  exact cmp_zero_eq_one_iff _

/-- The second agents' all-zero bit at (bb, n). -/
theorem second_all_zero : val_main_v7 (F := Ideal) x1 (ix2 bb n) = 1#1 ↔ ∀ d, agent x1 bb n d = 0 := by
  have h : S8x256x7.Reduces [2] S8x256 := by decide
  unfold val_main_v7
  rw [Host.reduce_eq_fold_single IntOp.andi _ _ _ h, val_main_c_1_apply, fold_and_eq_one_iff]
  exact ⟨fun H d => (second_bit_at x1 bb n h d).mp (H d (Finset.mem_univ _)),
    fun H d _ => (second_bit_at x1 bb n h d).mpr (H d)⟩

/-- The first agent's flag. -/
theorem first_flag : val_main_v4 (F := Ideal) x0 (ix2 bb m) = EdgeSpec.flag (agent x0 bb m) := by
  rw [val_main_v4_apply, val_main_v3_apply]
  exact flag_of_all_zero_bit _ _ (first_all_zero x0 bb m)

/-- The second agent's flag. -/
theorem second_flag : val_main_v9 (F := Ideal) x1 (ix2 bb n) = EdgeSpec.flag (agent x1 bb n) := by
  rw [val_main_v9_apply, val_main_v8_apply]
  exact flag_of_all_zero_bit _ _ (second_all_zero x1 bb n)

/-! ## One feature of one agent, before it is spread over the pairs -/

/-- Feature 0 of the first agent (bb, m). -/
theorem first_x : val_main_v15 (F := Ideal) x0 (ix3 bb m (0 : Fin 1)) = agent x0 bb m 0 := by
  rw [val_main_v15_apply, val_main_v14_apply, val_main_v10_apply]
  refine congrArg x0 (funext fun a => Fin.ext ?_)
  have hb := bb.isLt; have hm := m.isLt
  match a with
  | ⟨0, _⟩ => show ((bb.val * 256 + m.val) * 1 + 0) / 256 = bb.val; omega
  | ⟨1, _⟩ => show ((bb.val * 256 + m.val) * 1 + 0) / 1 % 256 = m.val; omega
  | ⟨2, _⟩ => rfl

/-- Feature 1 of the first agent (bb, m). -/
theorem first_y : val_main_v22 (F := Ideal) x0 (ix3 bb m (0 : Fin 1)) = agent x0 bb m 1 := by
  rw [val_main_v22_apply, val_main_v21_apply, val_main_v10_apply]
  refine congrArg x0 (funext fun a => Fin.ext ?_)
  have hb := bb.isLt; have hm := m.isLt
  match a with
  | ⟨0, _⟩ => show ((bb.val * 256 + m.val) * 1 + 0) / 256 = bb.val; omega
  | ⟨1, _⟩ => show ((bb.val * 256 + m.val) * 1 + 0) / 1 % 256 = m.val; omega
  | ⟨2, _⟩ => rfl

/-- Feature 3 of the first agent (bb, m). -/
theorem first_sin : val_main_v27 (F := Ideal) x0 (ix3 bb m (0 : Fin 1)) = agent x0 bb m 3 := by
  rw [val_main_v27_apply, val_main_v26_apply, val_main_v10_apply]
  refine congrArg x0 (funext fun a => Fin.ext ?_)
  have hb := bb.isLt; have hm := m.isLt
  match a with
  | ⟨0, _⟩ => show ((bb.val * 256 + m.val) * 1 + 0) / 256 = bb.val; omega
  | ⟨1, _⟩ => show ((bb.val * 256 + m.val) * 1 + 0) / 1 % 256 = m.val; omega
  | ⟨2, _⟩ => rfl

/-- Feature 4 of the first agent (bb, m). -/
theorem first_cos : val_main_v29 (F := Ideal) x0 (ix3 bb m (0 : Fin 1)) = agent x0 bb m 4 := by
  rw [val_main_v29_apply, val_main_v28_apply, val_main_v10_apply]
  refine congrArg x0 (funext fun a => Fin.ext ?_)
  have hb := bb.isLt; have hm := m.isLt
  match a with
  | ⟨0, _⟩ => show ((bb.val * 256 + m.val) * 1 + 0) / 256 = bb.val; omega
  | ⟨1, _⟩ => show ((bb.val * 256 + m.val) * 1 + 0) / 1 % 256 = m.val; omega
  | ⟨2, _⟩ => rfl

/-- Feature 0 of the second agent (bb, n). -/
theorem second_x : val_main_v13 (F := Ideal) x1 (ix3 bb (0 : Fin 1) n) = agent x1 bb n 0 := by
  rw [val_main_v13_apply, val_main_v12_apply, val_main_v11_apply]
  refine congrArg x1 (funext fun a => Fin.ext ?_)
  have hb := bb.isLt; have hn := n.isLt
  match a with
  | ⟨0, _⟩ => show ((bb.val * 1 + 0) * 256 + n.val) / 256 = bb.val; omega
  | ⟨1, _⟩ => show ((bb.val * 1 + 0) * 256 + n.val) / 1 % 256 = n.val; omega
  | ⟨2, _⟩ => rfl

/-- Feature 1 of the second agent (bb, n). -/
theorem second_y : val_main_v20 (F := Ideal) x1 (ix3 bb (0 : Fin 1) n) = agent x1 bb n 1 := by
  rw [val_main_v20_apply, val_main_v19_apply, val_main_v11_apply]
  refine congrArg x1 (funext fun a => Fin.ext ?_)
  have hb := bb.isLt; have hn := n.isLt
  match a with
  | ⟨0, _⟩ => show ((bb.val * 1 + 0) * 256 + n.val) / 256 = bb.val; omega
  | ⟨1, _⟩ => show ((bb.val * 1 + 0) * 256 + n.val) / 1 % 256 = n.val; omega
  | ⟨2, _⟩ => rfl

/-- Feature 3 of the second agent (bb, n). -/
theorem second_sin : val_main_v31 (F := Ideal) x1 (ix3 bb (0 : Fin 1) n) = agent x1 bb n 3 := by
  rw [val_main_v31_apply, val_main_v30_apply, val_main_v11_apply]
  refine congrArg x1 (funext fun a => Fin.ext ?_)
  have hb := bb.isLt; have hn := n.isLt
  match a with
  | ⟨0, _⟩ => show ((bb.val * 1 + 0) * 256 + n.val) / 256 = bb.val; omega
  | ⟨1, _⟩ => show ((bb.val * 1 + 0) * 256 + n.val) / 1 % 256 = n.val; omega
  | ⟨2, _⟩ => rfl

/-- Feature 4 of the second agent (bb, n). -/
theorem second_cos : val_main_v33 (F := Ideal) x1 (ix3 bb (0 : Fin 1) n) = agent x1 bb n 4 := by
  rw [val_main_v33_apply, val_main_v32_apply, val_main_v11_apply]
  refine congrArg x1 (funext fun a => Fin.ext ?_)
  have hb := bb.isLt; have hn := n.isLt
  match a with
  | ⟨0, _⟩ => show ((bb.val * 1 + 0) * 256 + n.val) / 256 = bb.val; omega
  | ⟨1, _⟩ => show ((bb.val * 1 + 0) * 256 + n.val) / 1 % 256 = n.val; omega
  | ⟨2, _⟩ => rfl

/-- Feature 2 of the second agent (bb, n). -/
theorem second_speed : val_main_v69 (F := Ideal) x1 (ix3 bb (0 : Fin 1) n) = agent x1 bb n 2 := by
  rw [val_main_v69_apply, val_main_v68_apply, val_main_v11_apply]
  refine congrArg x1 (funext fun a => Fin.ext ?_)
  have hb := bb.isLt; have hn := n.isLt
  match a with
  | ⟨0, _⟩ => show ((bb.val * 1 + 0) * 256 + n.val) / 256 = bb.val; omega
  | ⟨1, _⟩ => show ((bb.val * 1 + 0) * 256 + n.val) / 1 % 256 = n.val; omega
  | ⟨2, _⟩ => rfl

/-! ## The features spread over the pairs (bb, m, n) -/

/-- A first agent's quantity spread over the pairs is read at (bb, m, 0). -/
theorem pair_to_first : idx_main_v17 (ix3 bb m n) = ix3 bb m (0 : Fin 1) := by
  funext a
  match a with
  | ⟨0, _⟩ => rfl
  | ⟨1, _⟩ => rfl
  | ⟨2, _⟩ => rfl

/-- A second agent's quantity spread over the pairs is read at (bb, 0, n). -/
theorem pair_to_second : idx_main_v16 (ix3 bb m n) = ix3 bb (0 : Fin 1) n := by
  funext a
  match a with
  | ⟨0, _⟩ => rfl
  | ⟨1, _⟩ => rfl
  | ⟨2, _⟩ => rfl

theorem spread_17 : val_main_v17 (F := Ideal) x0 (ix3 bb m n) = agent x0 bb m 0 := by
  rw [val_main_v17_apply, show idx_main_v17 (ix3 bb m n) = ix3 bb m (0 : Fin 1) from pair_to_first bb m n, first_x]

theorem spread_24 : val_main_v24 (F := Ideal) x0 (ix3 bb m n) = agent x0 bb m 1 := by
  rw [val_main_v24_apply, show idx_main_v24 (ix3 bb m n) = ix3 bb m (0 : Fin 1) from pair_to_first bb m n, first_y]

theorem spread_34 : val_main_v34 (F := Ideal) x0 (ix3 bb m n) = agent x0 bb m 4 := by
  rw [val_main_v34_apply, show idx_main_v34 (ix3 bb m n) = ix3 bb m (0 : Fin 1) from pair_to_first bb m n, first_cos]

theorem spread_36 : val_main_v36 (F := Ideal) x0 (ix3 bb m n) = agent x0 bb m 3 := by
  rw [val_main_v36_apply, show idx_main_v36 (ix3 bb m n) = ix3 bb m (0 : Fin 1) from pair_to_first bb m n, first_sin]

theorem spread_42 : val_main_v42 (F := Ideal) x0 (ix3 bb m n) = agent x0 bb m 4 := by
  rw [val_main_v42_apply, show idx_main_v42 (ix3 bb m n) = ix3 bb m (0 : Fin 1) from pair_to_first bb m n, first_cos]

theorem spread_46 : val_main_v46 (F := Ideal) x0 (ix3 bb m n) = agent x0 bb m 4 := by
  rw [val_main_v46_apply, show idx_main_v46 (ix3 bb m n) = ix3 bb m (0 : Fin 1) from pair_to_first bb m n, first_cos]

theorem spread_49 : val_main_v49 (F := Ideal) x0 (ix3 bb m n) = agent x0 bb m 3 := by
  rw [val_main_v49_apply, show idx_main_v49 (ix3 bb m n) = ix3 bb m (0 : Fin 1) from pair_to_first bb m n, first_sin]

theorem spread_53 : val_main_v53 (F := Ideal) x0 (ix3 bb m n) = agent x0 bb m 4 := by
  rw [val_main_v53_apply, show idx_main_v53 (ix3 bb m n) = ix3 bb m (0 : Fin 1) from pair_to_first bb m n, first_cos]

theorem spread_56 : val_main_v56 (F := Ideal) x0 (ix3 bb m n) = agent x0 bb m 3 := by
  rw [val_main_v56_apply, show idx_main_v56 (ix3 bb m n) = ix3 bb m (0 : Fin 1) from pair_to_first bb m n, first_sin]

theorem spread_16 : val_main_v16 (F := Ideal) x1 (ix3 bb m n) = agent x1 bb n 0 := by
  rw [val_main_v16_apply, show idx_main_v16 (ix3 bb m n) = ix3 bb (0 : Fin 1) n from pair_to_second bb m n, second_x]

theorem spread_23 : val_main_v23 (F := Ideal) x1 (ix3 bb m n) = agent x1 bb n 1 := by
  rw [val_main_v23_apply, show idx_main_v23 (ix3 bb m n) = ix3 bb (0 : Fin 1) n from pair_to_second bb m n, second_y]

theorem spread_45 : val_main_v45 (F := Ideal) x1 (ix3 bb m n) = agent x1 bb n 3 := by
  rw [val_main_v45_apply, show idx_main_v45 (ix3 bb m n) = ix3 bb (0 : Fin 1) n from pair_to_second bb m n, second_sin]

theorem spread_48 : val_main_v48 (F := Ideal) x1 (ix3 bb m n) = agent x1 bb n 4 := by
  rw [val_main_v48_apply, show idx_main_v48 (ix3 bb m n) = ix3 bb (0 : Fin 1) n from pair_to_second bb m n, second_cos]

theorem spread_52 : val_main_v52 (F := Ideal) x1 (ix3 bb m n) = agent x1 bb n 4 := by
  rw [val_main_v52_apply, show idx_main_v52 (ix3 bb m n) = ix3 bb (0 : Fin 1) n from pair_to_second bb m n, second_cos]

theorem spread_55 : val_main_v55 (F := Ideal) x1 (ix3 bb m n) = agent x1 bb n 3 := by
  rw [val_main_v55_apply, show idx_main_v55 (ix3 bb m n) = ix3 bb (0 : Fin 1) n from pair_to_second bb m n, second_sin]

theorem spread_70 : val_main_v70 (F := Ideal) x1 (ix3 bb m n) = agent x1 bb n 2 := by
  rw [val_main_v70_apply, show idx_main_v70 (ix3 bb m n) = ix3 bb (0 : Fin 1) n from pair_to_second bb m n, second_speed]

/-- The first agent's sine, negated, spread over the pairs. -/
theorem spread_40 : val_main_v40 (F := Ideal) x0 (ix3 bb m n) = -(agent x0 bb m 3) := by
  rw [val_main_v40_apply, show idx_main_v40 (ix3 bb m n) = ix3 bb m (0 : Fin 1) from pair_to_first bb m n,
    val_main_v39_apply, first_sin]
  rfl

/-- The first agent's flag spread over the pairs. -/
theorem spread_61 : val_main_v61 (F := Ideal) x0 (ix3 bb m n) = EdgeSpec.flag (agent x0 bb m) := by
  rw [val_main_v61_apply, show idx_main_v61 (ix3 bb m n) = ix3 bb m (0 : Fin 1) from pair_to_first bb m n,
    val_main_v59_apply, ← first_flag]
  refine congrArg _ (funext fun a => ?_)
  match a with
  | ⟨0, _⟩ => rfl
  | ⟨1, _⟩ => rfl

/-- The second agent's flag spread over the pairs. -/
theorem spread_62 : val_main_v62 (F := Ideal) x1 (ix3 bb m n) = EdgeSpec.flag (agent x1 bb n) := by
  rw [val_main_v62_apply, show idx_main_v62 (ix3 bb m n) = ix3 bb (0 : Fin 1) n from pair_to_second bb m n,
    val_main_v60_apply, ← second_flag]
  refine congrArg _ (funext fun a => ?_)
  match a with
  | ⟨0, _⟩ => rfl
  | ⟨1, _⟩ => rfl

/-! ## The arithmetic at a pair (bb, m, n) -/

/-- The displacement along x. -/
theorem dx_at : val_main_v18 (F := Ideal) x0 x1 (ix3 bb m n) = agent x1 bb n 0 - agent x0 bb m 0 := by
  rw [val_main_v18_apply, spread_16, spread_17]; rfl

/-- The displacement along y. -/
theorem dy_at : val_main_v25 (F := Ideal) x0 x1 (ix3 bb m n) = agent x1 bb n 1 - agent x0 bb m 1 := by
  rw [val_main_v25_apply, spread_23, spread_24]; rfl

/-- The mask: the product of the two flags. -/
theorem mask_at : val_main_v63 (F := Ideal) x0 x1 (ix3 bb m n)
    = EdgeSpec.flag (agent x0 bb m) * EdgeSpec.flag (agent x1 bb n) := by
  rw [val_main_v63_apply, spread_61, spread_62]; rfl

/-- The masked displacement along the first agent's heading. -/
theorem along_at : val_main_v64 (F := Ideal) x0 x1 (ix3 bb m n) = EdgeSpec.alongE (agent x0 bb m) (agent x1 bb n) := by
  rw [val_main_v64_apply, val_main_v38_apply, val_main_v35_apply, val_main_v37_apply, mask_at, dx_at, dy_at,
    spread_34, spread_36]
  rfl

/-- The masked displacement across the first agent's heading. -/
theorem across_at : val_main_v65 (F := Ideal) x0 x1 (ix3 bb m n) = EdgeSpec.acrossE (agent x0 bb m) (agent x1 bb n) := by
  rw [val_main_v65_apply, val_main_v44_apply, val_main_v41_apply, val_main_v43_apply, mask_at, dx_at, dy_at,
    spread_40, spread_42]
  rfl

/-- The masked sine of the relative heading. -/
theorem rel_sin_at : val_main_v66 (F := Ideal) x0 x1 (ix3 bb m n) = EdgeSpec.relSinE (agent x0 bb m) (agent x1 bb n) := by
  rw [val_main_v66_apply, val_main_v51_apply, val_main_v47_apply, val_main_v50_apply, mask_at,
    spread_45, spread_46, spread_48, spread_49]
  rfl

/-- The masked cosine of the relative heading. -/
theorem rel_cos_at : val_main_v67 (F := Ideal) x0 x1 (ix3 bb m n) = EdgeSpec.relCosE (agent x0 bb m) (agent x1 bb n) := by
  rw [val_main_v67_apply, val_main_v58_apply, val_main_v54_apply, val_main_v57_apply, mask_at,
    spread_52, spread_53, spread_55, spread_56]
  rfl

/-- The first edge feature: the masked displacement along, divided by ten. -/
theorem along_div_at : val_main_v72 (F := Ideal) x0 x1 (ix3 bb m n)
    = Ideal.div (EdgeSpec.alongE (agent x0 bb m) (agent x1 bb n)) EdgeSpec.ten := by
  rw [val_main_v72_apply, val_main_v71_apply, val_main_cst_2_apply, along_at]; rfl

/-- The second edge feature: the masked displacement across, divided by ten. -/
theorem across_div_at : val_main_v74 (F := Ideal) x0 x1 (ix3 bb m n)
    = Ideal.div (EdgeSpec.acrossE (agent x0 bb m) (agent x1 bb n)) EdgeSpec.ten := by
  rw [val_main_v74_apply, val_main_v73_apply, val_main_cst_3_apply, across_at]; rfl

/-- The fifth edge feature: the second agent's speed times the masked relative sine. -/
theorem speed_sin_at : val_main_v75 (F := Ideal) x0 x1 (ix3 bb m n)
    = agent x1 bb n 2 * EdgeSpec.relSinE (agent x0 bb m) (agent x1 bb n) := by
  rw [val_main_v75_apply, spread_70, rel_sin_at]; rfl

/-- The sixth edge feature: the second agent's speed times the masked relative cosine. -/
theorem speed_cos_at : val_main_v76 (F := Ideal) x0 x1 (ix3 bb m n)
    = agent x1 bb n 2 * EdgeSpec.relCosE (agent x0 bb m) (agent x1 bb n) := by
  rw [val_main_v76_apply, spread_70, rel_cos_at]; rfl

/-! ## The row of eight edge features -/

/-- A quantity of the pairs given a trailing unit axis is read at the pair. -/
theorem unit_to_pair : idx_main_v77 (ix4 bb m n (0 : Fin 1)) = ix3 bb m n := by
  funext a
  match a with
  | ⟨0, _⟩ => rfl
  | ⟨1, _⟩ => rfl
  | ⟨2, _⟩ => rfl

theorem core_0 : val_main_v83 (F := Ideal) x0 x1 (ix4 bb m n (0 : Fin 6)) = val_main_v72 (F := Ideal) x0 x1 (ix3 bb m n) := by
  rw [← show idx_main_v77 (ix4 bb m n (0 : Fin 1)) = ix3 bb m n from unit_to_pair bb m n, ← val_main_v77_apply]
  unfold val_main_v83
  refine concatenate_apply_piece (t := S8x256x256x6) _ _ _ _ 0 ?_ S8x256x256x1 _ ?_ ?_ 0 ?_ (ix4 bb m n (0 : Fin 1)) ?_ ?_
  · show 0 < 6; omega
  · rfl
  · rfl
  · rfl
  · intro b hb
    match b with
    | ⟨0, _⟩ => rfl
    | ⟨1, _⟩ => rfl
    | ⟨2, _⟩ => rfl
    | ⟨3, _⟩ => exact absurd rfl hb
  · rfl

theorem core_1 : val_main_v83 (F := Ideal) x0 x1 (ix4 bb m n (1 : Fin 6)) = val_main_v74 (F := Ideal) x0 x1 (ix3 bb m n) := by
  rw [← show idx_main_v78 (ix4 bb m n (0 : Fin 1)) = ix3 bb m n from unit_to_pair bb m n, ← val_main_v78_apply]
  unfold val_main_v83
  refine concatenate_apply_piece (t := S8x256x256x6) _ _ _ _ 1 ?_ S8x256x256x1 _ ?_ ?_ 1 ?_ (ix4 bb m n (0 : Fin 1)) ?_ ?_
  · show 1 < 6; omega
  · rfl
  · rfl
  · rfl
  · intro b hb
    match b with
    | ⟨0, _⟩ => rfl
    | ⟨1, _⟩ => rfl
    | ⟨2, _⟩ => rfl
    | ⟨3, _⟩ => exact absurd rfl hb
  · rfl

theorem core_2 : val_main_v83 (F := Ideal) x0 x1 (ix4 bb m n (2 : Fin 6)) = val_main_v66 (F := Ideal) x0 x1 (ix3 bb m n) := by
  rw [← show idx_main_v79 (ix4 bb m n (0 : Fin 1)) = ix3 bb m n from unit_to_pair bb m n, ← val_main_v79_apply]
  unfold val_main_v83
  refine concatenate_apply_piece (t := S8x256x256x6) _ _ _ _ 2 ?_ S8x256x256x1 _ ?_ ?_ 2 ?_ (ix4 bb m n (0 : Fin 1)) ?_ ?_
  · show 2 < 6; omega
  · rfl
  · rfl
  · rfl
  · intro b hb
    match b with
    | ⟨0, _⟩ => rfl
    | ⟨1, _⟩ => rfl
    | ⟨2, _⟩ => rfl
    | ⟨3, _⟩ => exact absurd rfl hb
  · rfl

theorem core_3 : val_main_v83 (F := Ideal) x0 x1 (ix4 bb m n (3 : Fin 6)) = val_main_v67 (F := Ideal) x0 x1 (ix3 bb m n) := by
  rw [← show idx_main_v80 (ix4 bb m n (0 : Fin 1)) = ix3 bb m n from unit_to_pair bb m n, ← val_main_v80_apply]
  unfold val_main_v83
  refine concatenate_apply_piece (t := S8x256x256x6) _ _ _ _ 3 ?_ S8x256x256x1 _ ?_ ?_ 3 ?_ (ix4 bb m n (0 : Fin 1)) ?_ ?_
  · show 3 < 6; omega
  · rfl
  · rfl
  · rfl
  · intro b hb
    match b with
    | ⟨0, _⟩ => rfl
    | ⟨1, _⟩ => rfl
    | ⟨2, _⟩ => rfl
    | ⟨3, _⟩ => exact absurd rfl hb
  · rfl

theorem core_4 : val_main_v83 (F := Ideal) x0 x1 (ix4 bb m n (4 : Fin 6)) = val_main_v75 (F := Ideal) x0 x1 (ix3 bb m n) := by
  rw [← show idx_main_v81 (ix4 bb m n (0 : Fin 1)) = ix3 bb m n from unit_to_pair bb m n, ← val_main_v81_apply]
  unfold val_main_v83
  refine concatenate_apply_piece (t := S8x256x256x6) _ _ _ _ 4 ?_ S8x256x256x1 _ ?_ ?_ 4 ?_ (ix4 bb m n (0 : Fin 1)) ?_ ?_
  · show 4 < 6; omega
  · rfl
  · rfl
  · rfl
  · intro b hb
    match b with
    | ⟨0, _⟩ => rfl
    | ⟨1, _⟩ => rfl
    | ⟨2, _⟩ => rfl
    | ⟨3, _⟩ => exact absurd rfl hb
  · rfl

theorem core_5 : val_main_v83 (F := Ideal) x0 x1 (ix4 bb m n (5 : Fin 6)) = val_main_v76 (F := Ideal) x0 x1 (ix3 bb m n) := by
  rw [← show idx_main_v82 (ix4 bb m n (0 : Fin 1)) = ix3 bb m n from unit_to_pair bb m n, ← val_main_v82_apply]
  unfold val_main_v83
  refine concatenate_apply_piece (t := S8x256x256x6) _ _ _ _ 5 ?_ S8x256x256x1 _ ?_ ?_ 5 ?_ (ix4 bb m n (0 : Fin 1)) ?_ ?_
  · show 5 < 6; omega
  · rfl
  · rfl
  · rfl
  · intro b hb
    match b with
    | ⟨0, _⟩ => rfl
    | ⟨1, _⟩ => rfl
    | ⟨2, _⟩ => rfl
    | ⟨3, _⟩ => exact absurd rfl hb
  · rfl

/-- The second agent's two extra features spread over the pairs. -/
theorem extra_at (e : Fin 2) : val_main_v85 (F := Ideal) x1 (ix4 bb m n e)
    = agent x1 bb n ⟨5 + e.val, by have := e.isLt; omega⟩ := by
  rw [val_main_v85_apply, val_main_v84_apply, val_main_v11_apply]
  refine congrArg x1 (funext fun a => Fin.ext ?_)
  match a with
  | ⟨0, _⟩ => rfl
  | ⟨1, _⟩ => rfl
  | ⟨2, _⟩ => rfl

theorem row_0 : val_main_v86 (F := Ideal) x0 x1 (ix4 bb m n (0 : Fin 8)) = val_main_v83 (F := Ideal) x0 x1 (ix4 bb m n (0 : Fin 6)) := by
  unfold val_main_v86
  refine concatenate_pair_apply_left (t := S8x256x256x8) (s₁ := S8x256x256x6) (s₂ := S8x256x256x2) _ _ _ _ _ ?_ _ ?_
  · rfl
  intro b
  match b with
  | ⟨0, _⟩ => rfl
  | ⟨1, _⟩ => rfl
  | ⟨2, _⟩ => rfl
  | ⟨3, _⟩ => rfl

theorem row_1 : val_main_v86 (F := Ideal) x0 x1 (ix4 bb m n (1 : Fin 8)) = val_main_v83 (F := Ideal) x0 x1 (ix4 bb m n (1 : Fin 6)) := by
  unfold val_main_v86
  refine concatenate_pair_apply_left (t := S8x256x256x8) (s₁ := S8x256x256x6) (s₂ := S8x256x256x2) _ _ _ _ _ ?_ _ ?_
  · rfl
  intro b
  match b with
  | ⟨0, _⟩ => rfl
  | ⟨1, _⟩ => rfl
  | ⟨2, _⟩ => rfl
  | ⟨3, _⟩ => rfl

theorem row_2 : val_main_v86 (F := Ideal) x0 x1 (ix4 bb m n (2 : Fin 8)) = val_main_v83 (F := Ideal) x0 x1 (ix4 bb m n (2 : Fin 6)) := by
  unfold val_main_v86
  refine concatenate_pair_apply_left (t := S8x256x256x8) (s₁ := S8x256x256x6) (s₂ := S8x256x256x2) _ _ _ _ _ ?_ _ ?_
  · rfl
  intro b
  match b with
  | ⟨0, _⟩ => rfl
  | ⟨1, _⟩ => rfl
  | ⟨2, _⟩ => rfl
  | ⟨3, _⟩ => rfl

theorem row_3 : val_main_v86 (F := Ideal) x0 x1 (ix4 bb m n (3 : Fin 8)) = val_main_v83 (F := Ideal) x0 x1 (ix4 bb m n (3 : Fin 6)) := by
  unfold val_main_v86
  refine concatenate_pair_apply_left (t := S8x256x256x8) (s₁ := S8x256x256x6) (s₂ := S8x256x256x2) _ _ _ _ _ ?_ _ ?_
  · rfl
  intro b
  match b with
  | ⟨0, _⟩ => rfl
  | ⟨1, _⟩ => rfl
  | ⟨2, _⟩ => rfl
  | ⟨3, _⟩ => rfl

theorem row_4 : val_main_v86 (F := Ideal) x0 x1 (ix4 bb m n (4 : Fin 8)) = val_main_v83 (F := Ideal) x0 x1 (ix4 bb m n (4 : Fin 6)) := by
  unfold val_main_v86
  refine concatenate_pair_apply_left (t := S8x256x256x8) (s₁ := S8x256x256x6) (s₂ := S8x256x256x2) _ _ _ _ _ ?_ _ ?_
  · rfl
  intro b
  match b with
  | ⟨0, _⟩ => rfl
  | ⟨1, _⟩ => rfl
  | ⟨2, _⟩ => rfl
  | ⟨3, _⟩ => rfl

theorem row_5 : val_main_v86 (F := Ideal) x0 x1 (ix4 bb m n (5 : Fin 8)) = val_main_v83 (F := Ideal) x0 x1 (ix4 bb m n (5 : Fin 6)) := by
  unfold val_main_v86
  refine concatenate_pair_apply_left (t := S8x256x256x8) (s₁ := S8x256x256x6) (s₂ := S8x256x256x2) _ _ _ _ _ ?_ _ ?_
  · rfl
  intro b
  match b with
  | ⟨0, _⟩ => rfl
  | ⟨1, _⟩ => rfl
  | ⟨2, _⟩ => rfl
  | ⟨3, _⟩ => rfl

theorem row_6 : val_main_v86 (F := Ideal) x0 x1 (ix4 bb m n (6 : Fin 8)) = val_main_v85 (F := Ideal) x1 (ix4 bb m n (0 : Fin 2)) := by
  unfold val_main_v86
  refine concatenate_pair_apply_right (t := S8x256x256x8) (s₁ := S8x256x256x6) (s₂ := S8x256x256x2) _ _ _ _ _ ?_ ?_ _ ?_ ?_
  · rfl
  · rfl
  · intro b hb
    match b with
    | ⟨0, _⟩ => rfl
    | ⟨1, _⟩ => rfl
    | ⟨2, _⟩ => rfl
    | ⟨3, _⟩ => exact absurd rfl hb
  · rfl

theorem row_7 : val_main_v86 (F := Ideal) x0 x1 (ix4 bb m n (7 : Fin 8)) = val_main_v85 (F := Ideal) x1 (ix4 bb m n (1 : Fin 2)) := by
  unfold val_main_v86
  refine concatenate_pair_apply_right (t := S8x256x256x8) (s₁ := S8x256x256x6) (s₂ := S8x256x256x2) _ _ _ _ _ ?_ ?_ _ ?_ ?_
  · rfl
  · rfl
  · intro b hb
    match b with
    | ⟨0, _⟩ => rfl
    | ⟨1, _⟩ => rfl
    | ⟨2, _⟩ => rfl
    | ⟨3, _⟩ => exact absurd rfl hb
  · rfl

/-- The row of eight at (bb, m, n) is the specification's edge row of the two agents. -/
theorem edge_at (k : Fin 8) : val_main_v86 (F := Ideal) x0 x1 (ix4 bb m n k)
    = EdgeSpec.edge (agent x0 bb m) (agent x1 bb n) k :=
  match k with
  | ⟨0, _⟩ => (row_0 x0 x1 bb m n).trans ((core_0 x0 x1 bb m n).trans (along_div_at x0 x1 bb m n))
  | ⟨1, _⟩ => (row_1 x0 x1 bb m n).trans ((core_1 x0 x1 bb m n).trans (across_div_at x0 x1 bb m n))
  | ⟨2, _⟩ => (row_2 x0 x1 bb m n).trans ((core_2 x0 x1 bb m n).trans (rel_sin_at x0 x1 bb m n))
  | ⟨3, _⟩ => (row_3 x0 x1 bb m n).trans ((core_3 x0 x1 bb m n).trans (rel_cos_at x0 x1 bb m n))
  | ⟨4, _⟩ => (row_4 x0 x1 bb m n).trans ((core_4 x0 x1 bb m n).trans (speed_sin_at x0 x1 bb m n))
  | ⟨5, _⟩ => (row_5 x0 x1 bb m n).trans ((core_5 x0 x1 bb m n).trans (speed_cos_at x0 x1 bb m n))
  | ⟨6, _⟩ => (row_6 x0 x1 bb m n).trans (extra_at x1 bb m n 0)
  | ⟨7, _⟩ => (row_7 x0 x1 bb m n).trans (extra_at x1 bb m n 1)

/-! ## The weights and the bias -/

/-- The contraction with the weight matrix at (bb, m, n, h). -/
theorem dot_at (h : Fin 128) : val_main_v87 (F := Ideal) x0 x1 x2 (ix4 bb m n h)
    = ∑ k : Fin 8, EdgeSpec.edge (agent x0 bb m) (agent x1 bb n) k * x2 (ix2 h k) := by
  rw [val_main_v87_apply]
  refine Finset.sum_congr rfl fun k _ => ?_
  have hl : lidx_main_v87 (ix4 bb m n h) k = ix4 bb m n k := by
    funext a
    match a with
    | ⟨0, _⟩ => rfl
    | ⟨1, _⟩ => rfl
    | ⟨2, _⟩ => rfl
    | ⟨3, _⟩ => rfl
  have hr : ridx_main_v87 (ix4 bb m n h) k = ix2 h k := by
    funext a
    match a with
    | ⟨0, _⟩ => rfl
    | ⟨1, _⟩ => rfl
  rw [hl, hr, edge_at]

/-- The bias spread over the result at (bb, m, n, h). -/
theorem bias_at (h : Fin 128) : val_main_v89 (F := Ideal) x3 (ix4 bb m n h) = x3 (ix1 h) := by
  rw [val_main_v89_apply, val_main_v88_apply]
  refine congrArg x3 (funext fun a => ?_)
  match a with
  | ⟨0, _⟩ => rfl

/-- The reference's result at (bb, m, n, h). -/
theorem stage_at (h : Fin 128) : val_main_v90 (F := Ideal) x0 x1 x2 x3 (ix4 bb m n h)
    = EdgeSpec.out (agent x0 bb m) (agent x1 bb n) (fun k => x2 (ix2 h k)) (x3 (ix1 h)) := by
  rw [val_main_v90_apply, dot_at, bias_at]; rfl

/-- The reference's result array is the specification of its four arguments. -/
theorem stage_eq (x0 x1 : (⟨S8x256x7, .f32⟩ : BufTy).Contents (Elt Ideal)) (x2 : (⟨S128x8, .f32⟩ : BufTy).Contents (Elt Ideal)) (x3 : (⟨S128, .f32⟩ : BufTy).Contents (Elt Ideal)) :
    ReadP.val_main_v90 (F := Ideal) x0 x1 x2 x3 = EdgeSpec.G x0 x1 x2 x3 := by
  funext i
  obtain ⟨bb, m, n, h, rfl⟩ : ∃ (bb : Fin 8) (m n : Fin 256) (h : Fin 128), i = ix4 bb m n h :=
    ⟨i 0, i 1, i 2, i 3, eq_ix4 i⟩
  exact stage_at x0 x1 x2 x3 bb m n h

end Cert.ReferenceIdeal.EdgeRef

end
-- ==== Proof.lean ====
/-
  The proof of `Cert.Claim`: the pairwise edge-embedding kernel against its reference.

  Both programs compute, for every batch, every first agent `i`, every second agent `j` and every hidden unit `h`, the
  same extended real: the eight edge features of the pair — the displacement rotated into the first agent's frame and
  divided by ten, the sine and cosine of the relative heading, those two times the second agent's speed, the second
  agent's two extra features, the first six masked by the two agents' validity flags — multiplied by row `h` of the
  weight matrix and summed, plus the bias at `h` (`EdgeSpec.G`). The kernel tiles the two agent axes in blocks of 128 and
  multiplies on the matrix unit against the transposed weights (`EdgeArray.run`); the reference broadcasts both agent
  arrays to the full table and contracts with the weights (`EdgeRef.stage_eq` over the reference's run). The two sides
  apply the same operations in the same order to the same entries, but for two spellings: the flag (a minimum of marks
  against a conjunction of comparisons) and the negation (a difference from zero against a negation); no law of the
  extended reals beyond `0 - x = -x` is used, and the precondition is not opened.
  The three frames are the generated ones (the reference's is its run with the result dropped), and the idealization
  rewrote nothing, so `preserves` is `True`.
-/
import proofs.«112012_j30537217474895_1_alg».proof.Defs
import proofs.«112012_j30537217474895_1_alg».proof.Proof.Gen.Kernel
import proofs.«112012_j30537217474895_1_alg».proof.Proof.Gen.Kernel.Skeleton
import proofs.«112012_j30537217474895_1_alg».proof.Proof.Gen.Kernel.Launch
import proofs.«112012_j30537217474895_1_alg».proof.Proof.Gen.Kernel.Points
import proofs.«112012_j30537217474895_1_alg».proof.Proof.Gen.Kernel.Frame
import proofs.«112012_j30537217474895_1_alg».proof.Proof.Gen.KernelIdeal
import proofs.«112012_j30537217474895_1_alg».proof.Proof.Gen.KernelIdeal.Skeleton
import proofs.«112012_j30537217474895_1_alg».proof.Proof.Gen.KernelIdeal.Launch
import proofs.«112012_j30537217474895_1_alg».proof.Proof.Gen.KernelIdeal.Points
import proofs.«112012_j30537217474895_1_alg».proof.Proof.Gen.KernelIdeal.Frame
import proofs.«112012_j30537217474895_1_alg».proof.Proof.Gen.KernelIdeal.Value
import proofs.«112012_j30537217474895_1_alg».proof.Proof.Gen.ReferenceIdeal
import proofs.«112012_j30537217474895_1_alg».proof.Proof.Gen.Pre_finite_inputs
import proofs.«112012_j30537217474895_1_alg».proof.Proof.KernelArray
import proofs.«112012_j30537217474895_1_alg».proof.Proof.RefRun
import proofs.«112012_j30537217474895_1_alg».proof.Proof.RefRead
import proofs.«112012_j30537217474895_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both runs end with the result array at `EdgeSpec.G` of the argument arrays, which agree. -/
theorem algebraic : Cert.algebraic_KernelIdeal_ReferenceIdeal := by
  intro m ρ m' ρ' _ hagree
  refine ⟨_, Cert.KernelIdeal.EdgeArray.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v90_eq, Cert.ReferenceIdeal.EdgeRef.stage_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
